-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S500000 : Shape := ⟨1, ![500000]⟩
abbrev S102x64 : Shape := ⟨2, ![102, 64]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S102x64 : S_.BroadcastsInDim S102x64 (![] : Fin 0 → Fin S102x64.rank)
  reducesTo_S102x64_S_d0_1 : S102x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_arg11 : FVec F S128x1 .f32) (main_arg12 : FVec F S1 .f32) (main_v33 : IVec S_ 1) : IVec S_ 1 :=
  let main_v34 : FVec F S128x1 .f32 := Host.absf main_arg11
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg12
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg0 main_v44
  let main_c_17 : IVec S_ 32 := constantI S_ 32 102#32
  let main_v46 : IVec S100000 32 := broadcastInDim S100000 ![] bcast_S_S100000 main_c_17
  let main_v47 : IVec S100000 1 := cmpi .slt main_arg0 main_v46
  let main_v48 : IVec S100000 1 := andi main_v45 main_v47
  let main_c_18 : IVec S_ 1 := constantI S_ 1 1#1
  let main_v49 : IVec S_ 1 := (fun x v => Host.reduce IntOp.andi x v reducesTo_S100000_S_d0 h_S_) main_v48 main_c_18
  let main_v50 : IVec S_ 1 := andi main_v43 main_v49
  main_v50

def fn_part1 {F : FTy → Type} [FloatOps F] (main_arg0 : IVec S100000 32) (main_arg8 : FVec F S64 .f32) (main_arg9 : FVec F S128x128 .f32) (main_arg10 : FVec F S128 .f32) (main_arg11 : FVec F S128x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg11 main_arg12 main_v33

def fn {F : FTy → Type} [FloatOps F] (main_arg0 : IVec S100000 32) (main_arg1 : IVec S500000 32) (main_arg2 : IVec S500000 32) (main_arg3 : IVec S500000 32) (main_arg4 : FVec F S102x64 .f32) (main_arg5 : FVec F S64x64 .f32) (main_arg6 : FVec F S64 .f32) (main_arg7 : FVec F S64x64 .f32) (main_arg8 : FVec F S64 .f32) (main_arg9 : FVec F S128x128 .f32) (main_arg10 : FVec F S128 .f32) (main_arg11 : FVec F S128x1 .f32) (main_arg12 : FVec F S1 .f32) : IVec S_ 1 :=
  let main_v0 : FVec F S102x64 .f32 := Host.absf main_arg4
  let main_cst : FVec F S_ .f32 := constant S_ .f32 0x7F800000#32
  let main_v1 : FVec F S102x64 .f32 := broadcastInDim S102x64 ![] bcast_S_S102x64 main_cst
  let main_v2 : IVec S102x64 1 := cmpf .olt main_v0 main_v1
  let main_c : IVec S_ 1 := constantI S_ 1 1#1
  let main_v3 : IVec S_ 1 := (fun x v => Host.reduce IntOp.andi x v reducesTo_S102x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg8 main_arg9 main_arg10 main_arg11 main_arg12 main_v13 main_v16
-- ==== Kernel.lean ====
abbrev S100000 : Shape := ⟨1, ![100000]⟩
abbrev S500000 : Shape := ⟨1, ![500000]⟩
abbrev S102x64 : Shape := ⟨2, ![102, 64]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000x1 : Shape := ⟨2, ![100000, 1]⟩
abbrev S100000x64 : Shape := ⟨2, ![100000, 64]⟩
abbrev S2000x1 : Shape := ⟨2, ![2000, 1]⟩
abbrev S2000x64 : Shape := ⟨2, ![2000, 64]⟩
abbrev S1x102 : Shape := ⟨2, ![1, 102]⟩
abbrev S2000x102 : Shape := ⟨2, ![2000, 102]⟩
abbrev S_ : Shape := ⟨0, ![]⟩
abbrev S500000x1 : Shape := ⟨2, ![500000, 1]⟩
abbrev S500000x64 : Shape := ⟨2, ![500000, 64]⟩
abbrev S1x64 : Shape := ⟨2, ![1, 64]⟩
abbrev S64x128 : Shape := ⟨2, ![64, 128]⟩
abbrev S1x128 : Shape := ⟨2, ![1, 128]⟩
abbrev S1x1 : Shape := ⟨2, ![1, 1]⟩
abbrev S2000x128 : Shape := ⟨2, ![2000, 128]⟩

abbrev nBuf : Space → Nat
  | .hbm => 71
  | .vmem => 28
  | .smem => 0
  | _ => 0

abbrev bufTy : (tb : Table) → Fin (tcTables nBuf tb) → BufTy
  | .hbm, ⟨0, _⟩ => ⟨S100000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S102x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S100000x1, .i32⟩
  | .hbm, ⟨14, _⟩ => ⟨S100000x64, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x64, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x64, .f32⟩
  | .hbm, ⟨33, _⟩ => ⟨S500000x64, .f32⟩
  | .hbm, ⟨34, _⟩ => ⟨S_, .f32⟩
  | .hbm, ⟨35, _⟩ => ⟨S100000x64, .f32⟩
  | .hbm, ⟨36, _⟩ => ⟨S500000x1, .i32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000x64, .f32⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000x64, .f32⟩
  | .hbm, ⟨58, _⟩ => ⟨S500000x64, .f32⟩
  | .hbm, ⟨59, _⟩ => ⟨S_, .f32⟩
  | .hbm, ⟨60, _⟩ => ⟨S100000x64, .f32⟩
  | .hbm, ⟨61, _⟩ => ⟨S500000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S64x128, .f32⟩
  | .hbm, ⟨66, _⟩ => ⟨S64x128, .f32⟩
  | .hbm, ⟨67, _⟩ => ⟨S1x128, .f32⟩
  | .hbm, ⟨68, _⟩ => ⟨S1x1, .f32⟩
  | .hbm, ⟨69, _⟩ => ⟨S100000x1, .f32⟩
  | .hbm, ⟨70, _⟩ => ⟨S100000, .f32⟩
  | .local _ .vmem, ⟨0, _⟩ => ⟨S2000x1, .i32⟩
  | .local _ .vmem, ⟨1, _⟩ => ⟨S2000x1, .i32⟩
  | .local _ .vmem, ⟨2, _⟩ => ⟨S102x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S64x128, .f32⟩
  | .local _ .vmem, ⟨22, _⟩ => ⟨S64x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S2000x1, .f32⟩
  | .local _ .vmem, ⟨27, _⟩ => ⟨S2000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem7_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S102x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S100000_S100000x1 : S100000.ShapeCasts S100000x1
  iota_S1x102_d1_w32 : S1x102.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x102 : S2000x1.Broadcasts S2000x102
  broadcasts_S1x102_S2000x102 : S1x102.Broadcasts S2000x102
  natLt_1_32 : 1 < 32
  bitsLt_bf16_f32 : FTy.bits .bf16 < FTy.bits .f32
  inb_S102x64_S102x64_0_0 : ∀ a, (![0, 0] : Fin 2 → Nat) a + S102x64.size a ≤ S102x64.size a
  h_S102x64 : 0 < S102x64.numel
  inb_S2000x64_S2000x64_0_0 : ∀ a, (![0, 0] : Fin 2 → Nat) a + S2000x64.size a ≤ S2000x64.size a
  h_S2000x64 : 0 < S2000x64.numel
  bcast_S_S500000 : S_.BroadcastsInDim S500000 (![] : Fin 0 → Fin S500000.rank)
  bcast_S500000_S500000x1_0 : S500000.BroadcastsInDim S500000x1 (![0] : Fin 1 → Fin S500000x1.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S128x128_S64x128_0_0 : S128x128.Slices ![0, 0] S64x128
  slices_S128x128_S64x128_64_0 : S128x128.Slices ![64, 0] S64x128
  shapeCasts_S128_S1x128 : S128.ShapeCasts S1x128
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S100000x1_S100000 : S100000x1.ShapeCasts S100000
  dot_S2000x102_S102x64_S2000x64_1_0_0_1_n_n_wf : DotDims.WF S2000x102 S102x64 S2000x64 [1] [0] [0] [1] [] []
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  dot_S2000x64_S64x64_S2000x64_1_0_0_1_n_n_wf : DotDims.WF S2000x64 S64x64 S2000x64 [1] [0] [0] [1] [] []
  dot_S2000x64_S64x128_S2000x128_1_0_0_1_n_n_wf : DotDims.WF S2000x64 S64x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S102x64.size a ≤ S102x64.size a
  hwx0_1 : ∀ i : grid0.Coords, EltTy.bits .f32 = 32 ∨ (Rect.block (s := S102x64) S102x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x1.size a ≤ S100000x1.size a
  hwx3_7 : ∀ i : grid3.Coords, EltTy.bits .f32 = 32 ∨ (Rect.block (s := S100000x1) S2000x1.size (cc3_transform_7 i) (hinb3_7 i)).WholeWords (EltTy.packing .f32)

variable [Facts₀]

def dot_S2000x102_S102x64_S2000x64_1_0_0_1_n_n : DotDims S2000x102 S102x64 S2000x64 where
  lhsContracting := [1]
  rhsContracting := [0]
  lhsNonContracting := [0]
  rhsNonContracting := [1]
  lhsBatch := []
  rhsBatch := []
  wf := dot_S2000x102_S102x64_S2000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S102x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v46) S2000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000 : Shape := ⟨1, ![100000]⟩
abbrev S500000 : Shape := ⟨1, ![500000]⟩
abbrev S102x64 : Shape := ⟨2, ![102, 64]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S100000x1 : Shape := ⟨2, ![100000, 1]⟩
abbrev S100000x64 : Shape := ⟨2, ![100000, 64]⟩
abbrev S500000x1 : Shape := ⟨2, ![500000, 1]⟩
abbrev S500000x64 : Shape := ⟨2, ![500000, 64]⟩
abbrev S1x64 : Shape := ⟨2, ![1, 64]⟩
abbrev S100000x128 : Shape := ⟨2, ![100000, 128]⟩
abbrev S1x128 : Shape := ⟨2, ![1, 128]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S102x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x64, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x64, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x64, .f32⟩
  | .hbm, ⟨40, _⟩ => ⟨S500000x64, .f32⟩
  | .hbm, ⟨41, _⟩ => ⟨S_, .f32⟩
  | .hbm, ⟨42, _⟩ => ⟨S100000x64, .f32⟩
  | .hbm, ⟨43, _⟩ => ⟨S500000x1, .i32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x64, .f32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i32⟩
  | .hbm, ⟨67, _⟩ => ⟨S500000, .i32⟩
  | .hbm, ⟨68, _⟩ => ⟨S500000x1, .i32⟩
  | .hbm, ⟨69, _⟩ => ⟨S500000x64, .f32⟩
  | .hbm, ⟨70, _⟩ => ⟨S500000x64, .f32⟩
  | .hbm, ⟨71, _⟩ => ⟨S_, .f32⟩
  | .hbm, ⟨72, _⟩ => ⟨S100000x64, .f32⟩
  | .hbm, ⟨73, _⟩ => ⟨S500000x1, .i32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x1, .f32⟩
  | .hbm, ⟨91, _⟩ => ⟨S1x1, .f32⟩
  | .hbm, ⟨92, _⟩ => ⟨S100000x1, .f32⟩
  | .hbm, ⟨93, _⟩ => ⟨S100000x1, .f32⟩
  | .hbm, ⟨94, _⟩ => ⟨S100000, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_cst : Ref sig .tc := ⟨.hbm, 87, rfl⟩
abbrev main_call2_v0 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S102x64_S100000x1_S100000x64_1_0_n_n_0_1_164_wf : GatherDims.WF S102x64 S100000x1 S100000x64 [1] [0] [] [0] [] 1 ![1, 64]
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  dot_S100000x64_S64x64_S100000x64_1_0_0_1_n_n_wf : DotDims.WF S100000x64 S64x64 S100000x64 [1] [0] [0] [1] [] []
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S102x64_S100000x1_S100000x64_1_0_n_n_0_1_164 : GatherDims S102x64 S100000x1 S100000x64 where
  offsetDims := [1]
  collapsedSliceDims := [0]
  operandBatchingDims := []
  startIndicesBatchingDims := []
  startIndexMap := [0]
  indexVectorDim := 1
  sliceSizes := ![1, 64]
  wf := gather_S102x64_S100000x1_S100000x64_1_0_n_n_0_1_164_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Dense.lean ====
/-
  The dense stages of the triangle-message network, as functions of whole arrays over the extended reals, entry by entry.

  An edge e carries a row of 64 features. `lookup` gives edge e the row of a 102-row table that its label names, written
  as the product of a one-hot row with the table: the sum over the table's rows k of [label e = k] times the table's
  entry (k, q). `layer` is an affine map of the 64 features followed by the positive part: at (e, q) the larger of
  zero and the sum over k of a (e, k) times w (k, q), plus b q. `head` scores an edge from its hidden row x and its
  input row x0: a 128-wide hidden layer whose weight matrix is given as its upper half wa (acting on x) and its lower
  half wb (acting on x0), the positive part, then one output column.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- A matrix of extended reals with r rows and c columns, indexed by its two coordinates. -/
abbrev Mat (r c : Nat) : Type := (⟨2, ![r, c]⟩ : Shape).Idx → EReal

/-- The one-hot weight of table row k for a 32-bit label w: the word of the test w = k, widened, read as a signed
    integer — one where the label is k, zero elsewhere. -/
def hot (w : BitVec 32) (k : Nat) : EReal :=
  ((((IntOp.cmpi .eq w (BitVec.ofNat 32 k)).setWidth 32).toInt : ℝ) : EReal)

/-- Entry (p, q) of the looked-up rows: the one-hot row of edge p's label against column q of the table. -/
def lookupAt (lab : (⟨2, ![100000, 1]⟩ : Shape).Idx → BitVec 32) (tab : Mat 102 64) (p : Fin 100000) (q : Fin 64) : EReal :=
  ∑ k : Fin 102, hot (lab (ix2 p (0 : Fin 1))) k.val * tab (ix2 k q)

/-- Every edge's table row, by the one-hot product. -/
def lookup (lab : (⟨2, ![100000, 1]⟩ : Shape).Idx → BitVec 32) (tab : Mat 102 64) : Mat 100000 64 :=
  fun i => lookupAt lab tab ⟨(i 0).val, idx2_lt0 i⟩ ⟨(i 1).val, idx2_lt1 i⟩

/-- Entry (p, q) of an affine layer with the positive part. -/
def layerAt (a : Mat 100000 64) (w : Mat 64 64) (b : Mat 1 64) (p : Fin 100000) (q : Fin 64) : EReal :=
  max ((∑ k : Fin 64, a (ix2 p k) * w (ix2 k q)) + b (ix2 (0 : Fin 1) q)) (Ideal.ofBits .f32 0x00000000#32)

/-- An affine layer with the positive part, on every edge. -/
def layer (a : Mat 100000 64) (w : Mat 64 64) (b : Mat 1 64) : Mat 100000 64 :=
  fun i => layerAt a w b ⟨(i 0).val, idx2_lt0 i⟩ ⟨(i 1).val, idx2_lt1 i⟩

/-- Hidden unit j of the scoring head on edge p, before the output column. -/
def hiddenAt (x x0 : Mat 100000 64) (wa wb : Mat 64 128) (b1 : Mat 1 128) (p : Fin 100000) (j : Fin 128) : EReal :=
  max (((∑ k : Fin 64, x (ix2 p k) * wa (ix2 k j)) + (∑ k : Fin 64, x0 (ix2 p k) * wb (ix2 k j))) + b1 (ix2 (0 : Fin 1) j))
    (Ideal.ofBits .f32 0x00000000#32)

/-- The score of edge p. -/
def headAt (x x0 : Mat 100000 64) (wa wb : Mat 64 128) (b1 : Mat 1 128) (w2 : Mat 128 1) (b2 : Mat 1 1) (p : Fin 100000) : EReal :=
  (∑ j : Fin 128, hiddenAt x x0 wa wb b1 p j * w2 (ix2 j (0 : Fin 1))) + b2 (ix2 (0 : Fin 1) (0 : Fin 1))

/-- The scoring head on every edge, as a one-column matrix. -/
def head (x x0 : Mat 100000 64) (wa wb : Mat 64 128) (b1 : Mat 1 128) (w2 : Mat 128 1) (b2 : Mat 1 1) : Mat 100000 1 :=
  fun i => headAt x x0 wa wb b1 w2 b2 ⟨(i 0).val, idx2_lt0 i⟩

end Cert.Dense

end
-- ==== Proof.Rows.lean ====
/-
  Small re-layings of arrays, entry by entry: a vector of n entries seen as a column (n × 1) or as a row (1 × n), a
  one-column matrix seen as a vector, and the upper and the lower 64 rows of a 128 × 128 matrix. Both programs build
  these with layout operations (a reshape in one, a broadcast in the other; slices in one, a joined pair of row
  blocks in the other); here each is the plain function of its entries that those operations compute.
-/
import Idealize.ShloMosaic.PureOps.Ideal
import Idealize.ShloMosaic.Lib.ValueIdx

noncomputable section

namespace Cert.Dense

open Idealize.ShloMosaic Idealize.ShloMosaic.ValueIdx

variable {α : Type}

/-- A vector as a one-column matrix: entry (p, 0) is entry p. -/
def colOf {n : Nat} (v : (⟨1, ![n]⟩ : Shape).Idx → α) : (⟨2, ![n, 1]⟩ : Shape).Idx → α :=
  fun i => v (ix1 ⟨(i 0).val, idx2_lt0 i⟩)

/-- A vector as a one-row matrix: entry (0, q) is entry q. -/
def rowOf {n : Nat} (v : (⟨1, ![n]⟩ : Shape).Idx → α) : (⟨2, ![1, n]⟩ : Shape).Idx → α :=
  fun i => v (ix1 ⟨(i 1).val, idx2_lt1 i⟩)

/-- A one-column matrix as a vector: entry p is entry (p, 0). -/
def vecOf {n : Nat} (x : (⟨2, ![n, 1]⟩ : Shape).Idx → α) : (⟨1, ![n]⟩ : Shape).Idx → α :=
  fun i => x (ix2 ⟨(i 0).val, (i 0).isLt⟩ (0 : Fin 1))

/-- Rows 0 … 63 of a 128 × 128 matrix. -/
def upperRows (w : (⟨2, ![128, 128]⟩ : Shape).Idx → α) : (⟨2, ![64, 128]⟩ : Shape).Idx → α :=
  fun i => w (ix2 (⟨(i 0).val, by have := idx2_lt0 i; omega⟩ : Fin 128) ⟨(i 1).val, idx2_lt1 i⟩)

/-- Rows 64 … 127 of a 128 × 128 matrix. -/
def lowerRows (w : (⟨2, ![128, 128]⟩ : Shape).Idx → α) : (⟨2, ![64, 128]⟩ : Shape).Idx → α :=
  fun i => w (ix2 (⟨64 + (i 0).val, by have := idx2_lt0 i; omega⟩ : Fin 128) ⟨(i 1).val, idx2_lt1 i⟩)

end Cert.Dense

end
-- ==== Proof.Triangle.lean ====
/-
  The triangle aggregation, the one stage both programs compute in the same way. For every triangle t with edges
  ab t, bc t, ac t the message is the entrywise product of the feature rows of edges ab t and bc t (a negative edge
  number counting from the end), and the aggregate of edge e is the sum of the messages of the triangles whose ac edge
  is e, starting from zero. Both programs apply exactly these operations to their current feature rows, so the proof
  carries them as ONE function of the rows and never looks inside: equal rows give equal aggregates.
-/
import proofs.«407951_j11003706213177_2_alg».proof.KernelIdeal
import proofs.«407951_j11003706213177_2_alg».proof.Proof.Gen.KernelIdeal

noncomputable section

namespace Cert.KernelIdeal.Hand

open Idealize.ShloMosaic Cert.KernelIdeal Cert.KernelIdeal.Facts₀ Cert.KernelIdeal.Facts

variable {F : FTy → Type} [FloatOps F]

/-- An edge number as the gather reads it: a negative one has the number of edges added. -/
def wrapEdge (ix : IVec S500000 32) : IVec S500000x1 32 :=
  broadcastInDim S500000x1 ![0] bcast_S500000_S500000x1_0
    (select (cmpi .slt ix (broadcastInDim S500000 ![] bcast_S_S500000 (constantI S_ 32 0#32)))
      (addi ix (broadcastInDim S500000 ![] bcast_S_S500000 (constantI S_ 32 100000#32))) ix)

/-- The aggregate of the triangle messages of the feature rows x: agg e = Σ over triangles t with ac t = e of
    x (ab t) · x (bc t), entry by entry. -/
def tri (x : FVec F S100000x64 .f32) (ab bc ac : IVec S500000 32) : FVec F S100000x64 .f32 :=
  Host.scatterAdd scatter_S100000x64_S500000x1_S500000x64_1_0_0_1
    (broadcastInDim S100000x64 ![] bcast_S_S100000x64 (constant S_ .f32 0x00000000#32))
    (broadcastInDim S500000x1 ![0] bcast_S500000_S500000x1_0 ac)
    (mulf (Host.gather gather_S100000x64_S500000x1_S500000x64_1_0_n_n_0_1_164 x (wrapEdge ab))
      (Host.gather gather_S100000x64_S500000x1_S500000x64_1_0_n_n_0_1_164 x (wrapEdge bc)))

end Cert.KernelIdeal.Hand

end
-- ==== Proof.Score.lean ====
/-
  The whole network as one function of its thirteen arguments, the form both programs are shown to compute:
  every edge's table row; two rounds of "aggregate the triangle messages of the current rows, then an affine layer
  with the positive part"; then the scoring head on the final rows and the first rows; the scores as a vector.
-/
import proofs.«407951_j11003706213177_2_alg».proof.Proof.Dense
import proofs.«407951_j11003706213177_2_alg».proof.Proof.Rows
import proofs.«407951_j11003706213177_2_alg».proof.Proof.Triangle

noncomputable section

namespace Cert.KernelIdeal.Hand

open Idealize.ShloMosaic Cert.KernelIdeal Cert.Dense

/-- Every edge's first feature row: the table row its label names. -/
def rows0 (lab : IVec S100000 32) (tab : FVec Ideal S102x64 .f32) : FVec Ideal S100000x64 .f32 :=
  lookup (colOf lab) tab

/-- One round: the triangle aggregate of the rows x through an affine layer with the positive part. -/
def round (x : FVec Ideal S100000x64 .f32) (ab bc ac : IVec S500000 32) (w : FVec Ideal S64x64 .f32) (b : FVec Ideal S64 .f32) :
    FVec Ideal S100000x64 .f32 :=
  layer (tri x ab bc ac) w (rowOf b)

/-- The score of every edge. -/
def score (lab : IVec S100000 32) (ab bc ac : IVec S500000 32) (tab : FVec Ideal S102x64 .f32)
    (w1 : FVec Ideal S64x64 .f32) (b1 : FVec Ideal S64 .f32) (w2 : FVec Ideal S64x64 .f32) (b2 : FVec Ideal S64 .f32)
    (hw : FVec Ideal S128x128 .f32) (hb : FVec Ideal S128 .f32) (ow : FVec Ideal S128x1 .f32) (ob : FVec Ideal S1 .f32) :
    FVec Ideal S100000 .f32 :=
  vecOf (head (round (round (rows0 lab tab) ab bc ac w1 b1) ab bc ac w2 b2) (rows0 lab tab)
    (upperRows hw) (lowerRows hw) (rowOf hb) ow (rowOf ob))

end Cert.KernelIdeal.Hand

end
-- ==== Proof.Layouts.lean ====
/-
  The layout operations the two programs use, read as the plain re-layings of Rows.lean: a reshape of a vector to a
  column or to a row, a reshape of a column to a vector, a broadcast of a vector to a row, and the two slices that take
  the upper and the lower half of the rows of a 128 × 128 matrix. Each is the same function of the entries whatever
  proof of its side condition it carries.
-/
import proofs.«407951_j11003706213177_2_alg».proof.Proof.Rows
import Idealize.ShloMosaic.Lib.Pipeline.Value

noncomputable section

namespace Cert.Dense

open Idealize.ShloMosaic Idealize.ShloMosaic.ValueIdx

variable {α : Type}

/-- A vector reshaped to a column is the column of its entries: (p, 0) has row-major position p. -/
theorem shapeCast_colOf {n : Nat} (v : (⟨1, ![n]⟩ : Shape).Idx → α) (h : (⟨1, ![n]⟩ : Shape).ShapeCasts ⟨2, ![n, 1]⟩) :
    shapeCast ⟨2, ![n, 1]⟩ v h = colOf v := by
  funext i
  refine shapeCast_apply v h i _ ?_
  rw [Shape.rowMajor_val_one, Shape.rowMajor_val_two]
  have h1 : (i 1).val < 1 := idx2_lt1 i
  show (i 0).val = (i 0).val * 1 + (i 1).val
  omega

/-- A vector reshaped to a row is the row of its entries: (0, q) has row-major position q. -/
theorem shapeCast_rowOf {n : Nat} (v : (⟨1, ![n]⟩ : Shape).Idx → α) (h : (⟨1, ![n]⟩ : Shape).ShapeCasts ⟨2, ![1, n]⟩) :
    shapeCast ⟨2, ![1, n]⟩ v h = rowOf v := by
  funext i
  refine shapeCast_apply v h i _ ?_
  rw [Shape.rowMajor_val_one, Shape.rowMajor_val_two]
  have h0 : (i 0).val < 1 := idx2_lt0 i
  show (i 1).val = (i 0).val * n + (i 1).val
  have : (i 0).val = 0 := by omega
  rw [this]; omega

/-- A column reshaped to a vector is the vector of its entries. -/
theorem shapeCast_vecOf {n : Nat} (x : (⟨2, ![n, 1]⟩ : Shape).Idx → α) (h : (⟨2, ![n, 1]⟩ : Shape).ShapeCasts ⟨1, ![n]⟩) :
    shapeCast ⟨1, ![n]⟩ x h = vecOf x := by
  funext i
  refine shapeCast_apply x h i _ ?_
  rw [Shape.rowMajor_val_one, Shape.rowMajor_val_two]
  show (i 0).val * 1 + 0 = (i 0).val
  omega

/-- A vector broadcast along a new leading unit axis is the row of its entries. -/
theorem bcast_rowOf {n : Nat} (v : (⟨1, ![n]⟩ : Shape).Idx → α)
    (h : (⟨1, ![n]⟩ : Shape).BroadcastsInDim ⟨2, ![1, n]⟩ ![1]) :
    broadcastInDim ⟨2, ![1, n]⟩ ![1] h v = rowOf v := by
  funext i
  refine broadcastInDim_apply _ h v i _ fun a => ?_
  match a with
  | ⟨0, _⟩ =>
    show (i 1).val = if n = 1 then 0 else (i 1).val
    split
    · next hn => have := idx2_lt1 i; omega
    · rfl

/-- The slice at rows 0 … 63 is the upper half of the rows. -/
theorem slice_upperRows (w : (⟨2, ![128, 128]⟩ : Shape).Idx → α)
    (h : (⟨2, ![128, 128]⟩ : Shape).Slices ![0, 0] ⟨2, ![64, 128]⟩) :
    extractStridedSlice ⟨2, ![64, 128]⟩ ![0, 0] w h = upperRows w := by
  funext i
  refine extractStridedSlice_apply _ w h i _ fun a => ?_
  match a with
  | ⟨0, _⟩ => show (i 0).val = 0 + (i 0).val; omega
  | ⟨1, _⟩ => show (i 1).val = 0 + (i 1).val; omega

/-- The slice at rows 64 … 127 is the lower half of the rows. -/
theorem slice_lowerRows (w : (⟨2, ![128, 128]⟩ : Shape).Idx → α)
    (h : (⟨2, ![128, 128]⟩ : Shape).Slices ![64, 0] ⟨2, ![64, 128]⟩) :
    extractStridedSlice ⟨2, ![64, 128]⟩ ![64, 0] w h = lowerRows w := by
  funext i
  refine extractStridedSlice_apply _ w h i _ fun a => ?_
  match a with
  | ⟨0, _⟩ => show 64 + (i 0).val = 64 + (i 0).val; rfl
  | ⟨1, _⟩ => show (i 1).val = 0 + (i 1).val; omega

end Cert.Dense

end
-- ==== Proof.Lookup.lean ====
/-
  The embedding stage on the whole edge array. At each of the fifty points the body forms, from a block of 2000 labels
  and the 102-row table, the product of the labels' one-hot matrix with the table: entry (p, q) is the sum over the
  table's rows k of [label p = k] times the table's entry (k, q). Point t writes this back as rows 2000 t … 2000 t + 1999
  of the output, and row r lies in the block of point r / 2000, so after the last point the output array is the one-hot
  product of the whole label column with the table, entry by entry.
-/
import proofs.«407951_j11003706213177_2_alg».proof.Proof.Gen.KernelIdeal.Frame
import proofs.«407951_j11003706213177_2_alg».proof.Proof.Dense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

namespace Lookup

/-! ## The one-hot product at an entry of a block -/

/-- The left operand of the product is read at the output's row … -/
theorem onehot_row (i : S2000x64.Idx) (q : dot_S2000x102_S102x64_S2000x64_1_0_0_1_n_n.contr.Idx) :
    (dot_S2000x102_S102x64_S2000x64_1_0_0_1_n_n.lhsIdx i q 0).val = (i 0).val := by
  unfold DotDims.lhsIdx
  rw [dif_neg (show ¬(0 : Fin S2000x102.rank) ∈ dot_S2000x102_S102x64_S2000x64_1_0_0_1_n_n.lhsBatch by decide), dif_pos (show (0 : Fin S2000x102.rank) ∈ dot_S2000x102_S102x64_S2000x64_1_0_0_1_n_n.lhsNonContracting by decide)]
  rfl
/-- … and at the summation index along its columns; -/
theorem onehot_col (i : S2000x64.Idx) (q : dot_S2000x102_S102x64_S2000x64_1_0_0_1_n_n.contr.Idx) :
    (dot_S2000x102_S102x64_S2000x64_1_0_0_1_n_n.lhsIdx i q 1).val = (q ⟨0, by decide⟩).val :=
  dot_S2000x102_S102x64_S2000x64_1_0_0_1_n_n.lhsIdx_val_of_single rfl i q
/-- the table is read at the summation index along its rows … -/
theorem table_row (i : S2000x64.Idx) (q : dot_S2000x102_S102x64_S2000x64_1_0_0_1_n_n.contr.Idx) :
    (dot_S2000x102_S102x64_S2000x64_1_0_0_1_n_n.rhsIdx i q 0).val = (q ⟨0, by decide⟩).val :=
  dot_S2000x102_S102x64_S2000x64_1_0_0_1_n_n.rhsIdx_val_of_single rfl i q
/-- … and at the output's column. -/
theorem table_col (i : S2000x64.Idx) (q : dot_S2000x102_S102x64_S2000x64_1_0_0_1_n_n.contr.Idx) :
    (dot_S2000x102_S102x64_S2000x64_1_0_0_1_n_n.rhsIdx i q 1).val = (i 1).val := by
  unfold DotDims.rhsIdx
  rw [dif_neg (show ¬(1 : Fin S102x64.rank) ∈ dot_S2000x102_S102x64_S2000x64_1_0_0_1_n_n.rhsBatch by decide), dif_pos (show (1 : Fin S102x64.rank) ∈ dot_S2000x102_S102x64_S2000x64_1_0_0_1_n_n.rhsNonContracting by decide)]
  rfl

/-- The entry of the one-hot matrix that term k of the sum at output entry i reads. -/
abbrev onehotIdx (i : S2000x64.Idx) (k : Fin 102) : S2000x102.Idx := fun a => match a with
  | ⟨0, _⟩ => ⟨(i 0).val, (i 0).isLt⟩
  | ⟨1, _⟩ => ⟨k.val, k.isLt⟩
/-- The entry of the table that term k of the sum at output entry i reads. -/
abbrev tableIdx (i : S2000x64.Idx) (k : Fin 102) : S102x64.Idx := fun a => match a with
  | ⟨0, _⟩ => ⟨k.val, k.isLt⟩
  | ⟨1, _⟩ => ⟨(i 1).val, (i 1).isLt⟩

/-- A matrix product into the zero matrix, at an entry: the sum over the 102 table rows. -/
theorem product_apply (a : FVec Ideal S2000x102 .bf16) (b : FVec Ideal S102x64 .bf16) (i : S2000x64.Idx) :
    matmul dot_S2000x102_S102x64_S2000x64_1_0_0_1_n_n none a b (constant (F := Ideal) S2000x64 .f32 0x00000000#32) i
      = ∑ k : Fin 102, a (onehotIdx i k) * b (tableIdx i k) := by
  simp only [matmul]
  rw [Ideal.matmul_constant_zero_apply, ← Equiv.sum_comp (ValueIdx.contrEquiv1 dot_S2000x102_S102x64_S2000x64_1_0_0_1_n_n 102 rfl rfl).symm]
  refine Finset.sum_congr rfl fun k _ => ?_
  have hk := ValueIdx.contrEquiv1_symm_val dot_S2000x102_S102x64_S2000x64_1_0_0_1_n_n 102 rfl rfl k
  have el : dot_S2000x102_S102x64_S2000x64_1_0_0_1_n_n.lhsIdx i ((ValueIdx.contrEquiv1 dot_S2000x102_S102x64_S2000x64_1_0_0_1_n_n 102 rfl rfl).symm k) = onehotIdx i k := funext fun a => Fin.ext (by
    match a with
    | ⟨0, _⟩ => exact onehot_row _ _
    | ⟨1, _⟩ => exact (onehot_col _ _).trans hk)
  have er : dot_S2000x102_S102x64_S2000x64_1_0_0_1_n_n.rhsIdx i ((ValueIdx.contrEquiv1 dot_S2000x102_S102x64_S2000x64_1_0_0_1_n_n 102 rfl rfl).symm k) = tableIdx i k := funext fun a => Fin.ext (by
    match a with
    | ⟨0, _⟩ => exact (table_row _ _).trans hk
    | ⟨1, _⟩ => exact table_col _ _)
  rw [el, er]

/-- Entry (p, q) of what the body computes from a block of labels and the table: the one-hot row of label p against
    column q of the table. -/
theorem payload_apply (lab : Vec Ideal S2000x1 .i32) (tab : Vec Ideal S102x64 .f32) (p : Fin 2000) (q : Fin 64) :
    k0_pay1 (F := Ideal) lab tab (ix2 p q) = ∑ k : Fin 102, Cert.Dense.hot (lab (ix2 p (0 : Fin 1))) k.val * tab (ix2 k q) := by
  unfold k0_pay1
  rw [product_apply]
  refine Finset.sum_congr rfl fun k _ => ?_
  rw [truncf_apply, truncf_apply, sitofp_apply, extui_apply, shapeCast_self]
  have hl : broadcastTo S2000x102 lab broadcasts_S2000x1_S2000x102 (onehotIdx (ix2 p q) k) = lab (ix2 p (0 : Fin 1)) :=
    broadcastTo_apply lab _ _ (ix2 p (0 : Fin 1)) (fun a => match a with
      | ⟨0, _⟩ => by show p.val = if (2000 : Nat) = 1 then 0 else p.val; rw [if_neg (by decide)]
      | ⟨1, _⟩ => by show 0 = if (1 : Nat) = 1 then 0 else k.val; rw [if_pos rfl])
  have hr : broadcastTo S2000x102 (iota Kind.tc S1x102 32 [1] iota_S1x102_d1_w32) broadcasts_S1x102_S2000x102 (onehotIdx (ix2 p q) k)
      = BitVec.ofNat 32 k.val := by
    rw [broadcastTo_apply _ _ _ (ix2 (0 : Fin 1) k) (fun a => match a with
      | ⟨0, _⟩ => by show 0 = if (1 : Nat) = 1 then 0 else p.val; rw [if_pos rfl]
      | ⟨1, _⟩ => by show k.val = if (102 : Nat) = 1 then 0 else k.val; rw [if_neg (by decide)]), iota_single_apply]
  have ht : tableIdx (ix2 p q) k = ix2 k q := funext fun a => match a with
    | ⟨0, _⟩ => rfl
    | ⟨1, _⟩ => rfl
  show FloatOps.sitofp (F := Ideal) FTy.f32 (BitVec.setWidth 32 (IntOp.cmpi .eq
      (broadcastTo S2000x102 lab broadcasts_S2000x1_S2000x102 (onehotIdx (ix2 p q) k))
      (broadcastTo S2000x102 (iota Kind.tc S1x102 32 [1] iota_S1x102_d1_w32) broadcasts_S1x102_S2000x102 (onehotIdx (ix2 p q) k))))
    * tab (tableIdx (ix2 p q) k) = _
  rw [hl, hr, ht]
  rfl

/-! ## From the blocks to the whole array -/

theorem zero_offsets : (![0, 0] : Fin 2 → Nat) = fun _ => 0 := funext fun a => by fin_cases a <;> rfl

/-- Where each window's block sits at point t: the labels' and the output's blocks are the t-th row blocks, the table's
    is the whole table (decided over the 50 points). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The labels' block at point t is rows 2000 t … 2000 t + 1999 of the label column. -/
theorem labels_block (c : Dev nD) (t : Fin cfg0.N) (x : S2000x1.Idx) (k : S100000x1.Idx)
    (hk0 : (k 0).val = 2000 * t.val + (x 0).val) (hk1 : (k 1).val = (x 1).val) :
    (iblk0 (F := Ideal) V c 0 t : Vec Ideal S2000x1 .i32) x = (V c main_v0 : S100000x1.Idx → BitVec 32) k := by
  obtain ⟨e0, e1, -⟩ := block_index t
  unfold iblk0
  rw [View.read_apply]
  show (V c main_v0 : S100000x1.Idx → BitVec 32) _ = _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 1 + 1 * (x 1).val = (k 1).val; rw [e1, hk1]; omega

/-- The table's block at every point is the whole table. -/
theorem table_block (c : Dev nD) (t : Fin cfg0.N) (x : S102x64.Idx) :
    (iblk0 (F := Ideal) V c 1 t : Vec Ideal S102x64 .f32) x = (V c main_arg4 : S102x64.Idx → EReal) x := by
  obtain ⟨-, -, e2, e3, -⟩ := block_index t
  unfold iblk0
  rw [View.read_apply]
  show (V c main_arg4 : S102x64.Idx → EReal) _ = _
  congr 1
  funext a
  apply Fin.ext
  match a with
  | ⟨0, _⟩ => show win0_1.index t (0 : Fin 2) * 102 + 1 * (x 0).val = (x 0).val; rw [e2]; omega
  | ⟨1, _⟩ => show win0_1.index t (1 : Fin 2) * 64 + 1 * (x 1).val = (x 1).val; rw [e3]; omega

/-- Entry j of what the body computes from the blocks at point t is the looked-up entry at row 2000 t + j 0 and column
    j 1, whenever the label block is that row block of the label column and the table block is the table. -/
theorem block_entry (lab : Vec Ideal S2000x1 .i32) (tab : Vec Ideal S102x64 .f32)
    (labels : S100000x1.Idx → BitVec 32) (table : S102x64.Idx → EReal) (t : Nat)
    (hlab : ∀ (x : S2000x1.Idx) (k : S100000x1.Idx), (k 0).val = 2000 * t + (x 0).val → (k 1).val = (x 1).val → lab x = labels k)
    (htab : ∀ x, tab x = table x)
    (j : S2000x64.Idx) (i : S100000x64.Idx) (hi0 : (i 0).val = 2000 * t + (j 0).val) (hi1 : (i 1).val = (j 1).val) :
    k0_pay1 (F := Ideal) lab tab j = Cert.Dense.lookup labels table i := by
  obtain ⟨p, q, rfl⟩ : ∃ (p : Fin 2000) (q : Fin 64), j = ix2 p q := ⟨j 0, j 1, eq_ix2 j⟩
  rw [payload_apply]
  unfold Cert.Dense.lookup Cert.Dense.lookupAt
  refine Finset.sum_congr rfl fun k _ => ?_
  rw [hlab (ix2 p (0 : Fin 1)) (ix2 ⟨(i 0).val, idx2_lt0 i⟩ (0 : Fin 1)) hi0 rfl, htab]
  have hq : q = ⟨(i 1).val, idx2_lt1 i⟩ := Fin.ext hi1.symm
  rw [hq]

/-- What point t writes back is block t of the looked-up array. -/
theorem written_block (c : Dev nD) (t : Fin cfg0.N) :
    (dat0 (F := Ideal) V c).flushed 2 t
      = ((cfg0.win 2).blk t).view.read (Elt Ideal) (Cert.Dense.lookup (V c main_v0) (V c main_arg4)) := by
  show (cfg0.win 2).cut (grid0.coords t) ((dat0 (F := Ideal) V c).after 2 t) = _
  rw [after0_2]
  unfold out0_2
  rw [View.canon_unit_zero zero_offsets]
  simp only [View.ld_unit_zero (S := S2000x1) zero_offsets, View.ld_unit_zero (S := S102x64) zero_offsets]
  obtain ⟨-, -, -, -, e4, e5⟩ := block_index t
  funext j
  show k0_pay1 (F := Ideal) (iblk0 V c 0 t) (iblk0 V c 1 t) j
    = Cert.Dense.lookup (V c main_v0) (V c main_arg4) (((cfg0.win 2).blk t).view.emb j)
  refine block_entry _ _ _ _ t.val (fun x k h0 h1 => labels_block V c t x k h0 h1) (fun x => table_block V c t x) j _ ?_ ?_
  · show win0_2.index t (0 : Fin 2) * 2000 + 1 * (j 0).val = 2000 * t.val + (j 0).val
    rw [e4]; omega
  · show win0_2.index t (1 : Fin 2) * 64 + 1 * (j 1).val = (j 1).val
    rw [e5]; omega

/-- Row r lies in the block of point r / 2000: every entry of the array is in some point's block. -/
theorem rows_covered (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 50 := N_0
  have ht : (i 0).val / 2000 < cfg0.N := by rw [hN]; omega
  refine ⟨⟨(i 0).val / 2000, ht⟩, flush0_2 _, ?_⟩
  obtain ⟨-, -, -, -, e4, e5⟩ := block_index ⟨(i 0).val / 2000, ht⟩
  show i ∈ ((View.whole main_v1).slice (win0_2.rect ⟨(i 0).val / 2000, ht⟩)).set
  rw [View.set_slice_whole, Rect.mem_set_unit]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e5]; omega

end Lookup

/-- After the fifty points the output array holds every edge's table row. -/
theorem lookup_array (c : Dev nD) :
    (dat0 (F := Ideal) V c).arrAt 2 cfg0.N = Cert.Dense.lookup (V c main_v0) (V c main_arg4) :=
  (dat0 (F := Ideal) V c).arrAt_eq_of_cover 2 (Cert.Dense.lookup (V c main_v0) (V c main_arg4))
    (fun t _ => Lookup.written_block V c t) Lookup.rows_covered

end Cert.KernelIdeal.Hand

end
-- ==== Proof.Layer1.lean ====
/-
  The first layer of the triangle-message network, from its blocks to the whole array.

  The region walks the 100000 edges in 50 blocks of 2000 rows. At block t it holds rows 2000·t … 2000·t + 1999 of the
  input features, the whole 64×64 weight matrix and the whole bias row, and stores, at row p and column q of the block,
  the larger of zero and (the sum over k of a (p, k) · w (k, q)) + b (0, q). Here: the 2000×64 by 64×64 product entry
  by entry; the stored value entry by entry; each input block as rows of its array; what block t writes back as block
  t of `Cert.Dense.layer` of the three whole arrays; every row r lying in block r / 2000; and so the output array
  after the region is `Cert.Dense.layer` of the input arrays.
-/
import proofs.«407951_j11003706213177_2_alg».proof.Proof.Gen.KernelIdeal.Frame
import proofs.«407951_j11003706213177_2_alg».proof.Proof.Dense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

namespace Layer

/-! ## The 2000×64 by 64×64 product, entry by entry -/

/-- The left operand is read on the output's row … -/
theorem dot_lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … at the contracted column; -/
theorem dot_lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand is read on the contracted row … -/
theorem dot_rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … at the output's column. -/
theorem dot_rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Entry (p, q) of the product accumulated onto zero is the sum over k of x (p, k) times w (k, q). -/
theorem matmul_entry {φ₁ φ₂ : FTy} (x : FVec Ideal S2000x64 φ₁) (w : FVec Ideal S64x64 φ₂) (p : Fin 2000) (q : Fin 64) :
    matmul dot_S2000x64_S64x64_S2000x64_1_0_0_1_n_n none x w (constant S2000x64 .f32 0x00000000#32) (ix2 p q)
      = ∑ k : Fin 64, x (ix2 p k) * w (ix2 k q) := by
  show FloatOps.matmul dot_S2000x64_S64x64_S2000x64_1_0_0_1_n_n none x w (constant S2000x64 .f32 0x00000000#32) (ix2 p q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact dot_lhs_row _ _
    | ⟨1, _⟩ => exact (dot_lhs_col _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (dot_rhs_row _ _).trans hk
    | ⟨1, _⟩ => exact dot_rhs_col _ _)
  rw [el, er]

theorem offsets_zero : (![0, 0] : Fin 2 → Nat) = fun _ => 0 := funext fun a => by fin_cases a <;> rfl

end Layer

variable (V : (c : Dev nD) → (b : Ref sig .tc) → Buf (Elt Ideal) ((c : Thread nD τ).loc b))

namespace Layer1

open Layer

/-! ## What the body stores, entry by entry -/

/-- Entry (p, q) of the body's stored value: the positive part of the affine map of row p of the block. -/
theorem stored_entry (a : Vec Ideal S2000x64 .f32) (w : Vec Ideal S64x64 .f32) (b : Vec Ideal S1x64 .f32) (p : Fin 2000) (q : Fin 64) :
    (k1_pay1 (F := Ideal) a w b) (ix2 p q)
      = max ((∑ k : Fin 64, a (ix2 p k) * w (ix2 k q)) + b (ix2 (0 : Fin 1) q)) (Ideal.ofBits .f32 0x00000000#32) := by
  unfold k1_pay1
  rw [maximumf_apply, addf_apply, broadcast_apply, shapeCast_self, shapeCast_self, matmul_entry,
    broadcastTo_apply b _ (ix2 p q) (ix2 (0 : Fin 1) q) (fun d => by match d with | ⟨0, _⟩ => rfl | ⟨1, _⟩ => rfl)]
  rfl

/-! ## From the blocks to the array -/

/-- The block each window holds at grid point t: the row-blocked input and the output sit at block row t, the
    weights and the bias at their one block. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the input's block at point t is row 2000·t + p of the input array. -/
theorem rows_block (c : Dev nD) (t : Fin cfg1.N) (p : Fin 2000) (k : Fin 64) (h : t.val * 2000 + p.val < 100000) :
    (iblk1 (F := Ideal) V c 0 t : Vec Ideal S2000x64 .f32) (ix2 p k)
      = (V c main_v19 : S100000x64.Idx → EReal) (ix2 ⟨t.val * 2000 + p.val, h⟩ k) := by
  obtain ⟨e0, e1, -⟩ := block_index t
  unfold iblk1
  rw [View.read_apply]
  show V c main_v19 _ = V c main_v19 _
  congr 1
  funext a
  apply Fin.ext
  match a with
  | ⟨0, _⟩ => show win1_0.index t (0 : Fin 2) * 2000 + 1 * p.val = t.val * 2000 + p.val; rw [e0]; omega
  | ⟨1, _⟩ => show win1_0.index t (1 : Fin 2) * 64 + 1 * k.val = k.val; rw [e1]; omega

/-- The weights' block at every point is the weight matrix. -/
theorem weights_block (c : Dev nD) (t : Fin cfg1.N) (k : Fin 64) (q : Fin 64) :
    (iblk1 (F := Ideal) V c 1 t : Vec Ideal S64x64 .f32) (ix2 k q)
      = (V c main_arg5 : S64x64.Idx → EReal) (ix2 k q) := by
  obtain ⟨-, -, e0, e1, -⟩ := block_index t
  unfold iblk1
  rw [View.read_apply]
  show V c main_arg5 _ = V c main_arg5 _
  congr 1
  funext a
  apply Fin.ext
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-- The bias's block at every point is the bias row. -/
theorem bias_block (c : Dev nD) (t : Fin cfg1.N) (q : Fin 64) :
    (iblk1 (F := Ideal) V c 2 t : Vec Ideal S1x64 .f32) (ix2 (0 : Fin 1) q)
      = (V c main_v20 : S1x64.Idx → EReal) (ix2 (0 : Fin 1) q) := by
  obtain ⟨-, -, -, -, e0, e1, -⟩ := block_index t
  unfold iblk1
  rw [View.read_apply]
  show V c main_v20 _ = V c main_v20 _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 64 + 1 * q.val = q.val; rw [e1]; omega

/-- What point t writes back is block t of the layer of the whole arrays. -/
theorem flushed_eq (c : Dev nD) (t : Fin cfg1.N) :
    (dat1 (F := Ideal) V c).flushed 3 t
      = ((cfg1.win 3).blk t).view.read (Elt Ideal) (Cert.Dense.layer (V c main_v19) (V c main_arg5) (V c main_v20)) := by
  show (cfg1.win 3).cut (grid1.coords t) ((dat1 V c).after 3 t) = _
  rw [after1_3]
  unfold out1_3
  rw [View.canon_unit_zero offsets_zero]
  simp only [View.ld_unit_zero (S := S2000x64) offsets_zero, View.ld_unit_zero (S := S64x64) offsets_zero,
    View.ld_unit_zero (S := S1x64) offsets_zero]
  obtain ⟨-, -, -, -, -, -, e0, e1⟩ := block_index t
  have hN : cfg1.N = 50 := N_1
  funext j
  obtain ⟨p, q, rfl⟩ : ∃ (p : Fin 2000) (q : Fin 64), j = (ix2 p q : S2000x64.Idx) := ⟨j 0, j 1, eq_ix2 (n0 := 2000) (n1 := 64) j⟩
  have hr : t.val * 2000 + p.val < 100000 := by have := t.isLt; omega
  refine (stored_entry _ _ _ p q).trans ?_
  have hi : ((cfg1.win 3).blk t).view.emb (ix2 p q) = (ix2 ⟨t.val * 2000 + p.val, hr⟩ q : S100000x64.Idx) := by
    funext a
    apply Fin.ext
    match a with
    | ⟨0, _⟩ => show win1_3.index t (0 : Fin 2) * 2000 + 1 * p.val = t.val * 2000 + p.val; rw [e0]; omega
    | ⟨1, _⟩ => show win1_3.index t (1 : Fin 2) * 64 + 1 * q.val = q.val; rw [e1]; omega
  rw [View.read_apply, hi]
  show _ = Cert.Dense.layerAt (V c main_v19) (V c main_arg5) (V c main_v20) ⟨t.val * 2000 + p.val, hr⟩ q
  unfold Cert.Dense.layerAt
  simp only [rows_block V c t p _ hr, weights_block V c t, bias_block V c t]

/-- An index of the output array is in point t's block exactly when each coordinate is in the block's range on its axis. -/
theorem mem_block (t : Fin cfg1.N) (i : S100000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v21).slice (win1_3.rect t)).set ↔ _
  rw [View.set_slice_whole, Rect.mem_set_unit]
  exact Iff.rfl

/-- Every index of the output array is in some point's block: row r is in the block of point r / 2000. -/
theorem covered (i : S100000x64.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 64 := (i 1).isLt
  obtain ⟨t, ht⟩ : ∃ t : Fin cfg1.N, t.val = (i 0).val / 2000 := ⟨⟨(i 0).val / 2000, by omega⟩, rfl⟩
  obtain ⟨-, -, -, -, -, -, e0, e1⟩ := block_index t
  refine ⟨t, flush1_3 t, ?_⟩
  rw [mem_block]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 64 ≤ (i 1).val ∧ (i 1).val < win1_3.index t (1 : Fin 2) * 64 + 64
    rw [e1]; omega

end Layer1

/-- The first layer's output array after the region: the affine layer with the positive part of the region's three
    input arrays, on every edge. -/
theorem layer1_array (c : Dev nD) :
    (dat1 (F := Ideal) V c).arrAt 3 cfg1.N = Cert.Dense.layer (V c main_v19) (V c main_arg5) (V c main_v20) :=
  (dat1 (F := Ideal) V c).arrAt_eq_of_cover 3 _ (fun t _ => Layer1.flushed_eq V c t) Layer1.covered

end Cert.KernelIdeal.Hand

end
-- ==== Proof.Layer2.lean ====
/-
  The second layer of the triangle-message network, from its blocks to the whole array.

  The same affine layer with the positive part as the first, at the same shapes, on the second layer's arrays: the
  region walks the 100000 edges in 50 blocks of 2000 rows, holding at block t rows 2000·t … 2000·t + 1999 of its
  input features, the whole 64×64 weight matrix and the whole bias row. Here: the stored value entry by entry (the
  product's entries are the first layer's lemma); each input block as rows of its array; what block t writes back as
  block t of `Cert.Dense.layer` of the three whole arrays; every row r lying in block r / 2000; and so the output
  array after the region is `Cert.Dense.layer` of the input arrays.
-/
import proofs.«407951_j11003706213177_2_alg».proof.Proof.Gen.KernelIdeal.Frame
import proofs.«407951_j11003706213177_2_alg».proof.Proof.Dense
import proofs.«407951_j11003706213177_2_alg».proof.Proof.Layer1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

namespace Layer2

open Layer

/-! ## What the body stores, entry by entry -/

/-- Entry (p, q) of the body's stored value: the positive part of the affine map of row p of the block. -/
theorem stored_entry (a : Vec Ideal S2000x64 .f32) (w : Vec Ideal S64x64 .f32) (b : Vec Ideal S1x64 .f32) (p : Fin 2000) (q : Fin 64) :
    (k2_pay1 (F := Ideal) a w b) (ix2 p q)
      = max ((∑ k : Fin 64, a (ix2 p k) * w (ix2 k q)) + b (ix2 (0 : Fin 1) q)) (Ideal.ofBits .f32 0x00000000#32) := by
  unfold k2_pay1
  rw [maximumf_apply, addf_apply, broadcast_apply, shapeCast_self, shapeCast_self, matmul_entry,
    broadcastTo_apply b _ (ix2 p q) (ix2 (0 : Fin 1) q) (fun d => by match d with | ⟨0, _⟩ => rfl | ⟨1, _⟩ => rfl)]
  rfl

/-! ## From the blocks to the array -/

/-- The block each window holds at grid point t: the row-blocked input and the output sit at block row t, the
    weights and the bias at their one block. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the input's block at point t is row 2000·t + p of the input array. -/
theorem rows_block (c : Dev nD) (t : Fin cfg2.N) (p : Fin 2000) (k : Fin 64) (h : t.val * 2000 + p.val < 100000) :
    (iblk2 (F := Ideal) V c 0 t : Vec Ideal S2000x64 .f32) (ix2 p k)
      = (V c main_v39 : S100000x64.Idx → EReal) (ix2 ⟨t.val * 2000 + p.val, h⟩ k) := by
  obtain ⟨e0, e1, -⟩ := block_index t
  unfold iblk2
  rw [View.read_apply]
  show V c main_v39 _ = V c main_v39 _
  congr 1
  funext a
  apply Fin.ext
  match a with
  | ⟨0, _⟩ => show win2_0.index t (0 : Fin 2) * 2000 + 1 * p.val = t.val * 2000 + p.val; rw [e0]; omega
  | ⟨1, _⟩ => show win2_0.index t (1 : Fin 2) * 64 + 1 * k.val = k.val; rw [e1]; omega

/-- The weights' block at every point is the weight matrix. -/
theorem weights_block (c : Dev nD) (t : Fin cfg2.N) (k : Fin 64) (q : Fin 64) :
    (iblk2 (F := Ideal) V c 1 t : Vec Ideal S64x64 .f32) (ix2 k q)
      = (V c main_arg7 : S64x64.Idx → EReal) (ix2 k q) := by
  obtain ⟨-, -, e0, e1, -⟩ := block_index t
  unfold iblk2
  rw [View.read_apply]
  show V c main_arg7 _ = V c main_arg7 _
  congr 1
  funext a
  apply Fin.ext
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- The bias's block at every point is the bias row. -/
theorem bias_block (c : Dev nD) (t : Fin cfg2.N) (q : Fin 64) :
    (iblk2 (F := Ideal) V c 2 t : Vec Ideal S1x64 .f32) (ix2 (0 : Fin 1) q)
      = (V c main_v40 : S1x64.Idx → EReal) (ix2 (0 : Fin 1) q) := by
  obtain ⟨-, -, -, -, e0, e1, -⟩ := block_index t
  unfold iblk2
  rw [View.read_apply]
  show V c main_v40 _ = V c main_v40 _
  congr 1
  funext a
  apply Fin.ext
  match a with
  | ⟨0, _⟩ => show win2_2.index t (0 : Fin 2) * 1 + 1 * (0 : Fin 1).val = (0 : Fin 1).val; rw [e0]; omega
  | ⟨1, _⟩ => show win2_2.index t (1 : Fin 2) * 64 + 1 * q.val = q.val; rw [e1]; omega

/-- What point t writes back is block t of the layer of the whole arrays. -/
theorem flushed_eq (c : Dev nD) (t : Fin cfg2.N) :
    (dat2 (F := Ideal) V c).flushed 3 t
      = ((cfg2.win 3).blk t).view.read (Elt Ideal) (Cert.Dense.layer (V c main_v39) (V c main_arg7) (V c main_v40)) := by
  show (cfg2.win 3).cut (grid2.coords t) ((dat2 V c).after 3 t) = _
  rw [after2_3]
  unfold out2_3
  rw [View.canon_unit_zero offsets_zero]
  simp only [View.ld_unit_zero (S := S2000x64) offsets_zero, View.ld_unit_zero (S := S64x64) offsets_zero,
    View.ld_unit_zero (S := S1x64) offsets_zero]
  obtain ⟨-, -, -, -, -, -, e0, e1⟩ := block_index t
  have hN : cfg2.N = 50 := N_2
  funext j
  obtain ⟨p, q, rfl⟩ : ∃ (p : Fin 2000) (q : Fin 64), j = (ix2 p q : S2000x64.Idx) := ⟨j 0, j 1, eq_ix2 (n0 := 2000) (n1 := 64) j⟩
  have hr : t.val * 2000 + p.val < 100000 := by have := t.isLt; omega
  refine (stored_entry _ _ _ p q).trans ?_
  have hi : ((cfg2.win 3).blk t).view.emb (ix2 p q) = (ix2 ⟨t.val * 2000 + p.val, hr⟩ q : S100000x64.Idx) := by
    funext a
    apply Fin.ext
    match a with
    | ⟨0, _⟩ => show win2_3.index t (0 : Fin 2) * 2000 + 1 * p.val = t.val * 2000 + p.val; rw [e0]; omega
    | ⟨1, _⟩ => show win2_3.index t (1 : Fin 2) * 64 + 1 * q.val = q.val; rw [e1]; omega
  rw [View.read_apply, hi]
  show _ = Cert.Dense.layerAt (V c main_v39) (V c main_arg7) (V c main_v40) ⟨t.val * 2000 + p.val, hr⟩ q
  unfold Cert.Dense.layerAt
  simp only [rows_block V c t p _ hr, weights_block V c t, bias_block V c t]

/-- An index of the output array is in point t's block exactly when each coordinate is in the block's range on its axis. -/
theorem mem_block (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v41).slice (win2_3.rect t)).set ↔ _
  rw [View.set_slice_whole, Rect.mem_set_unit]
  exact Iff.rfl

/-- Every index of the output array is in some point's block: row r is in the block of point r / 2000. -/
theorem covered (i : S100000x64.Idx) :
    ∃ t : Fin cfg2.N, (cfg2.win 3).flush t = true ∧ i ∈ ((cfg2.win 3).blk t).view.set := by
  have hN : cfg2.N = 50 := N_2
  have hi0 : (i 0).val < 100000 := (i 0).isLt
  have hi1 : (i 1).val < 64 := (i 1).isLt
  obtain ⟨t, ht⟩ : ∃ t : Fin cfg2.N, t.val = (i 0).val / 2000 := ⟨⟨(i 0).val / 2000, by omega⟩, rfl⟩
  obtain ⟨-, -, -, -, -, -, e0, e1⟩ := block_index t
  refine ⟨t, flush2_3 t, ?_⟩
  rw [mem_block]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 64 ≤ (i 1).val ∧ (i 1).val < win2_3.index t (1 : Fin 2) * 64 + 64
    rw [e1]; omega

end Layer2

/-- The second layer's output array after the region: the affine layer with the positive part of the region's three
    input arrays, on every edge. -/
theorem layer2_array (c : Dev nD) :
    (dat2 (F := Ideal) V c).arrAt 3 cfg2.N = Cert.Dense.layer (V c main_v39) (V c main_arg7) (V c main_v40) :=
  (dat2 (F := Ideal) V c).arrAt_eq_of_cover 3 _ (fun t _ => Layer2.flushed_eq V c t) Layer2.covered

end Cert.KernelIdeal.Hand

end
-- ==== Proof.Head.lean ====
/-
  The scoring head, from blocks to the whole array.

  The head scores an edge from its hidden row x and its input row x0: hidden unit j is the positive part of
  (Σ k, x (p, k) · wa (k, j)) + (Σ k, x0 (p, k) · wb (k, j)) + b1 (0, j), over the 64 features k, and the score of the
  edge is (Σ j, hidden j · w2 (j, 0)) + b2 (0, 0), over the 128 hidden units j.

  The region computes it 2000 edges at a time, at 50 points. Here: the two contractions read at an index (each entry
  is the sum over the contracted axis of left (row, k) times right (k, column)); the body's stored value at (p, q) as
  that formula of the blocks it loaded; each block read off its array (the two feature windows hold rows
  2000·t … 2000·t + 1999 at point t, the weight and bias windows are whole at every point); so what point t writes back
  is block t of the scores of every edge; every edge's row lies in the block of point row / 2000; hence after the
  region the score array is the scoring head of every edge.
-/
import proofs.«407951_j11003706213177_2_alg».proof.Proof.Gen.KernelIdeal.Frame
import proofs.«407951_j11003706213177_2_alg».proof.Proof.Dense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The two contractions of the head, read at an index

The hidden layer contracts the 64 features of a 2000-row block against a 64 × 128 weight matrix; the output column
contracts the 128 hidden units against a 128 × 1 matrix. In both, the left operand is read at (row, k) and the right
at (k, column). -/

theorem hidden_lhs_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem hidden_lhs_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem hidden_rhs_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem hidden_rhs_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- Entry (p, j) of a block's product with a 64 × 128 matrix, accumulated onto zero: the sum over the 64 features. -/
theorem hidden_matmul_apply (a : FVec Ideal S2000x64 .bf16) (b : FVec Ideal S64x128 .bf16) (p : Fin 2000) (j : Fin 128) :
    matmul dot_S2000x64_S64x128_S2000x128_1_0_0_1_n_n none a b (constant S2000x128 .f32 0x00000000#32) (ix2 p j)
      = ∑ k : Fin 64, a (ix2 p k) * b (ix2 k j) := by
  show FloatOps.matmul dot_S2000x64_S64x128_S2000x128_1_0_0_1_n_n none a b (constant S2000x128 .f32 0x00000000#32) (ix2 p j) = _
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p j) ((ValueIdx.contrEquiv1 dot_S2000x64_S64x128_S2000x128_1_0_0_1_n_n 64 rfl rfl).symm k) = ix2 p k := funext fun d => Fin.ext (by
    match d with
    | ⟨0, _⟩ => exact hidden_lhs_0 _ _
    | ⟨1, _⟩ => exact (hidden_lhs_1 _ _).trans hk)
  have er : dot_S2000x64_S64x128_S2000x128_1_0_0_1_n_n.rhsIdx (ix2 p j) ((ValueIdx.contrEquiv1 dot_S2000x64_S64x128_S2000x128_1_0_0_1_n_n 64 rfl rfl).symm k) = ix2 k j := funext fun d => Fin.ext (by
    match d with
    | ⟨0, _⟩ => exact (hidden_rhs_0 _ _).trans hk
    | ⟨1, _⟩ => exact hidden_rhs_1 _ _)
  rw [el, er]

theorem column_lhs_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem column_lhs_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem column_rhs_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem column_rhs_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- Entry (p, q) of a block of hidden rows times a 128 × 1 column, accumulated onto zero: the sum over the 128 hidden units. -/
theorem column_matmul_apply (a : FVec Ideal S2000x128 .bf16) (b : FVec Ideal S128x1 .bf16) (p : Fin 2000) (q : Fin 1) :
    matmul dot_S2000x128_S128x1_S2000x1_1_0_0_1_n_n none a b (constant S2000x1 .f32 0x00000000#32) (ix2 p q)
      = ∑ j : Fin 128, a (ix2 p j) * b (ix2 j q) := by
  show FloatOps.matmul dot_S2000x128_S128x1_S2000x1_1_0_0_1_n_n none a b (constant S2000x1 .f32 0x00000000#32) (ix2 p q) = _
  rw [Ideal.matmul_constant_zero_apply, ← Equiv.sum_comp (ValueIdx.contrEquiv1 dot_S2000x128_S128x1_S2000x1_1_0_0_1_n_n 128 rfl rfl).symm]
  refine Finset.sum_congr rfl fun j _ => ?_
  have hj := ValueIdx.contrEquiv1_symm_val dot_S2000x128_S128x1_S2000x1_1_0_0_1_n_n 128 rfl rfl j
  have el : dot_S2000x128_S128x1_S2000x1_1_0_0_1_n_n.lhsIdx (ix2 p q) ((ValueIdx.contrEquiv1 dot_S2000x128_S128x1_S2000x1_1_0_0_1_n_n 128 rfl rfl).symm j) = ix2 p j := funext fun d => Fin.ext (by
    match d with
    | ⟨0, _⟩ => exact column_lhs_0 _ _
    | ⟨1, _⟩ => exact (column_lhs_1 _ _).trans hj)
  have er : dot_S2000x128_S128x1_S2000x1_1_0_0_1_n_n.rhsIdx (ix2 p q) ((ValueIdx.contrEquiv1 dot_S2000x128_S128x1_S2000x1_1_0_0_1_n_n 128 rfl rfl).symm j) = ix2 j q := funext fun d => Fin.ext (by
    match d with
    | ⟨0, _⟩ => exact (column_rhs_0 _ _).trans hj
    | ⟨1, _⟩ => exact column_rhs_1 _ _)
  rw [el, er]

/-! ## The bias rows, broadcast down the block -/

/-- The 1 × 128 bias row, broadcast to the block's 2000 rows, reads its entry in column j on every row. -/
theorem bias_row_apply (b : FVec Ideal S1x128 .f32) (p : Fin 2000) (j : Fin 128) :
    broadcastTo S2000x128 b broadcasts_S1x128_S2000x128 (ix2 p j) = b (ix2 (0 : Fin 1) j) :=
  broadcastTo_apply b broadcasts_S1x128_S2000x128 (ix2 p j) (ix2 (0 : Fin 1) j) (fun a => by
    match a with
    | ⟨0, _⟩ => show 0 = if (1 : Nat) = 1 then 0 else p.val; rw [if_pos rfl]
    | ⟨1, _⟩ => show j.val = if (128 : Nat) = 1 then 0 else j.val; rw [if_neg (by decide)])

/-- The 1 × 1 output bias, broadcast to the block's 2000 rows, reads its one entry everywhere. -/
theorem bias_one_apply (b : FVec Ideal S1x1 .f32) (p : Fin 2000) (q : Fin 1) :
    broadcastTo S2000x1 b broadcasts_S1x1_S2000x1 (ix2 p q) = b (ix2 (0 : Fin 1) (0 : Fin 1)) :=
  broadcastTo_apply b broadcasts_S1x1_S2000x1 (ix2 p q) (ix2 (0 : Fin 1) (0 : Fin 1)) (fun a => by
    match a with
    | ⟨0, _⟩ => show 0 = if (1 : Nat) = 1 then 0 else p.val; rw [if_pos rfl]
    | ⟨1, _⟩ => show 0 = if (1 : Nat) = 1 then 0 else q.val; rw [if_pos rfl])

/-! ## The payload at an index -/

/-- Entry (p, q) of what the body stores for a block: the hidden layer of row p (both halves of the weight matrix, the
    bias, the positive part), against the output column, plus the output bias. -/
theorem payload_apply (x x0 : Vec Ideal S2000x64 .f32) (wa wb : Vec Ideal S64x128 .f32) (b1 : Vec Ideal S1x128 .f32)
    (w2 : Vec Ideal S128x1 .f32) (b2 : Vec Ideal S1x1 .f32) (p : Fin 2000) (q : Fin 1) :
    k3_pay1 (F := Ideal) x x0 wa wb b1 w2 b2 (ix2 p q)
      = (∑ j : Fin 128, max (((∑ k : Fin 64, x (ix2 p k) * wa (ix2 k j)) + (∑ k : Fin 64, x0 (ix2 p k) * wb (ix2 k j))) + b1 (ix2 (0 : Fin 1) j))
            (Ideal.ofBits .f32 0x00000000#32) * w2 (ix2 j q))
          + b2 (ix2 (0 : Fin 1) (0 : Fin 1)) := by
  unfold k3_pay1
  simp only [shapeCast_self]
  rw [addf_apply, column_matmul_apply, bias_one_apply]
  refine congrArg (· + b2 (ix2 (0 : Fin 1) (0 : Fin 1))) (Finset.sum_congr rfl fun j _ => ?_)
  rw [truncf_apply, truncf_apply, maximumf_apply, addf_apply, addf_apply, hidden_matmul_apply, hidden_matmul_apply, bias_row_apply, broadcast_apply]
  simp only [truncf_apply]
  rfl

/-! ## A block's payload is the score of its rows -/

/-- If a block of 2000 rows holds, at row p, row r of the two feature arrays, then the body's payload at (p, q) is the
    score of edge r. -/
theorem payload_eq_headAt (x x0 : Cert.Dense.Mat 100000 64) (wa wb : Cert.Dense.Mat 64 128) (b1 : Cert.Dense.Mat 1 128)
    (w2 : Cert.Dense.Mat 128 1) (b2 : Cert.Dense.Mat 1 1)
    (xb x0b : Vec Ideal S2000x64 .f32) (wab wbb : Vec Ideal S64x128 .f32) (b1b : Vec Ideal S1x128 .f32)
    (w2b : Vec Ideal S128x1 .f32) (b2b : Vec Ideal S1x1 .f32) (r : Fin 100000) (p : Fin 2000) (q : Fin 1)
    (hx : ∀ k : Fin 64, xb (ix2 p k) = x (ix2 r k)) (hx0 : ∀ k : Fin 64, x0b (ix2 p k) = x0 (ix2 r k))
    (hwa : wab = wa) (hwb : wbb = wb) (hb1 : b1b = b1) (hw2 : w2b = w2) (hb2 : b2b = b2) :
    k3_pay1 (F := Ideal) xb x0b wab wbb b1b w2b b2b (ix2 p q) = Cert.Dense.headAt x x0 wa wb b1 w2 b2 r := by
  subst hwa hwb hb1 hw2 hb2
  obtain rfl : q = 0 := Subsingleton.elim _ _
  rw [payload_apply]
  unfold Cert.Dense.headAt Cert.Dense.hiddenAt
  simp only [hx, hx0]

/-! ## The windows' blocks, read off the arrays -/

theorem offsets_zero : (![0, 0] : Fin 2 → Nat) = fun _ => 0 := funext fun a => by fin_cases a <;> rfl

/-- The block indices, decided over the 50 points: the two feature windows and the output window are at row block t,
    column block 0; the five weight and bias windows are whole at every point. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row p of the hidden-feature window's block at point t is row 2000·t + p of the array. -/
theorem hidden_block_apply (c : Dev nD) (t : Fin cfg3.N) (p : Fin 2000) (k : Fin 64) (r : Fin 100000)
    (hr : r.val = t.val * 2000 + p.val) :
    (iblk3 V c 0 t : Vec Ideal S2000x64 .f32) (ix2 p k) = (V c main_v41 : S100000x64.Idx → EReal) (ix2 r k) := by
  obtain ⟨e0, e1, -⟩ := block_indices t
  unfold iblk3
  rw [View.read_apply]
  show V c main_v41 _ = V c main_v41 _
  refine congrArg _ (funext fun a => Fin.ext ?_)
  match a with
  | ⟨0, _⟩ => show win3_0.index t (0 : Fin 2) * 2000 + 1 * p.val = r.val; rw [e0, hr]; omega
  | ⟨1, _⟩ => show win3_0.index t (1 : Fin 2) * 64 + 1 * k.val = k.val; rw [e1]; omega

/-- Row p of the input-feature window's block at point t is row 2000·t + p of the array. -/
theorem input_block_apply (c : Dev nD) (t : Fin cfg3.N) (p : Fin 2000) (k : Fin 64) (r : Fin 100000)
    (hr : r.val = t.val * 2000 + p.val) :
    (iblk3 V c 1 t : Vec Ideal S2000x64 .f32) (ix2 p k) = (V c main_v1 : S100000x64.Idx → EReal) (ix2 r k) := by
  obtain ⟨-, -, e0, e1, -⟩ := block_indices t
  unfold iblk3
  rw [View.read_apply]
  show V c main_v1 _ = V c main_v1 _
  refine congrArg _ (funext fun a => Fin.ext ?_)
  match a with
  | ⟨0, _⟩ => show win3_1.index t (0 : Fin 2) * 2000 + 1 * p.val = r.val; rw [e0, hr]; omega
  | ⟨1, _⟩ => show win3_1.index t (1 : Fin 2) * 64 + 1 * k.val = k.val; rw [e1]; omega

/-- The upper half of the hidden weights is whole at every point. -/
theorem upper_weights_block (c : Dev nD) (t : Fin cfg3.N) :
    (iblk3 V c 2 t : Vec Ideal S64x128 .f32) = (V c main_v42 : S64x128.Idx → EReal) := by
  obtain ⟨-, -, -, -, e0, e1, -⟩ := block_indices t
  refine funext fun (y : S64x128.Idx) => ?_
  unfold iblk3
  rw [View.read_apply]
  show V c main_v42 _ = V c main_v42 _
  refine congrArg _ (funext fun a => Fin.ext ?_)
  match a with
  | ⟨0, _⟩ => show win3_2.index t (0 : Fin 2) * 64 + 1 * (y 0).val = (y 0).val; rw [e0]; omega
  | ⟨1, _⟩ => show win3_2.index t (1 : Fin 2) * 128 + 1 * (y 1).val = (y 1).val; rw [e1]; omega

/-- The lower half of the hidden weights is whole at every point. -/
theorem lower_weights_block (c : Dev nD) (t : Fin cfg3.N) :
    (iblk3 V c 3 t : Vec Ideal S64x128 .f32) = (V c main_v43 : S64x128.Idx → EReal) := by
  obtain ⟨-, -, -, -, -, -, e0, e1, -⟩ := block_indices t
  refine funext fun (y : S64x128.Idx) => ?_
  unfold iblk3
  rw [View.read_apply]
  show V c main_v43 _ = V c main_v43 _
  refine congrArg _ (funext fun a => Fin.ext ?_)
  match a with
  | ⟨0, _⟩ => show win3_3.index t (0 : Fin 2) * 64 + 1 * (y 0).val = (y 0).val; rw [e0]; omega
  | ⟨1, _⟩ => show win3_3.index t (1 : Fin 2) * 128 + 1 * (y 1).val = (y 1).val; rw [e1]; omega

/-- The hidden bias row is whole at every point. -/
theorem hidden_bias_block (c : Dev nD) (t : Fin cfg3.N) :
    (iblk3 V c 4 t : Vec Ideal S1x128 .f32) = (V c main_v44 : S1x128.Idx → EReal) := by
  obtain ⟨-, -, -, -, -, -, -, -, e0, e1, -⟩ := block_indices t
  refine funext fun (y : S1x128.Idx) => ?_
  unfold iblk3
  rw [View.read_apply]
  show V c main_v44 _ = V c main_v44 _
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- The output column is whole at every point. -/
theorem column_block (c : Dev nD) (t : Fin cfg3.N) :
    (iblk3 V c 5 t : Vec Ideal S128x1 .f32) = (V c main_arg11 : S128x1.Idx → EReal) := by
  obtain ⟨-, -, -, -, -, -, -, -, -, -, e0, e1, -⟩ := block_indices t
  refine funext fun (y : S128x1.Idx) => ?_
  unfold iblk3
  rw [View.read_apply]
  show V c main_arg11 _ = V c main_arg11 _
  refine congrArg _ (funext fun a => Fin.ext ?_)
  match a with
  | ⟨0, _⟩ => show win3_5.index t (0 : Fin 2) * 128 + 1 * (y 0).val = (y 0).val; rw [e0]; omega
  | ⟨1, _⟩ => show win3_5.index t (1 : Fin 2) * 1 + 1 * (y 1).val = (y 1).val; rw [e1]; omega

/-- The output bias is whole at every point. -/
theorem output_bias_block (c : Dev nD) (t : Fin cfg3.N) :
    (iblk3 V c 6 t : Vec Ideal S1x1 .f32) = (V c main_v45 : S1x1.Idx → EReal) := by
  obtain ⟨-, -, -, -, -, -, -, -, -, -, -, -, e0, e1, -⟩ := block_indices t
  refine funext fun (y : S1x1.Idx) => ?_
  unfold iblk3
  rw [View.read_apply]
  show V c main_v45 _ = V c main_v45 _
  refine congrArg _ (funext fun a => Fin.ext ?_)
  match a with
  | ⟨0, _⟩ => show win3_6.index t (0 : Fin 2) * 1 + 1 * (y 0).val = (y 0).val; rw [e0]; omega
  | ⟨1, _⟩ => show win3_6.index t (1 : Fin 2) * 1 + 1 * (y 1).val = (y 1).val; rw [e1]; omega

/-! ## From blocks to the array -/

/-- What point t writes back is block t of the scores of every edge. -/
theorem flushed_eq (c : Dev nD) (t : Fin cfg3.N) :
    (dat3 (F := Ideal) V c).flushed 7 t
      = ((cfg3.win 7).blk t).view.read (Elt Ideal) (Cert.Dense.head (V c main_v41) (V c main_v1) (V c main_v42) (V c main_v43) (V c main_v44) (V c main_arg11) (V c main_v45)) := by
  show (cfg3.win 7).cut (grid3.coords t) ((dat3 (F := Ideal) V c).after 7 t) = _
  rw [after3_7]
  unfold out3_7
  rw [View.canon_unit_zero offsets_zero]
  simp only [View.ld_unit_zero (S := S2000x64) offsets_zero, View.ld_unit_zero (S := S64x128) offsets_zero,
    View.ld_unit_zero (S := S1x128) offsets_zero, View.ld_unit_zero (S := S128x1) offsets_zero,
    View.ld_unit_zero (S := S1x1) offsets_zero]
  obtain ⟨-, -, -, -, -, -, -, -, -, -, -, -, -, -, e0, e1⟩ := block_indices t
  refine funext fun (y : S2000x1.Idx) => ?_
  obtain ⟨p, q, rfl⟩ : ∃ (p : Fin 2000) (q : Fin 1), y = ix2 p q := ⟨y 0, y 1, eq_ix2 y⟩
  rw [View.read_apply]
  have hrow : ((((cfg3.win 7).blk t).view.emb (ix2 p q)) 0).val = t.val * 2000 + p.val := by
    show win3_7.index t (0 : Fin 2) * 2000 + 1 * p.val = _
    rw [e0]; omega
  show k3_pay1 (F := Ideal) (iblk3 V c 0 t) (iblk3 V c 1 t) (iblk3 V c 2 t) (iblk3 V c 3 t) (iblk3 V c 4 t) (iblk3 V c 5 t) (iblk3 V c 6 t) (ix2 p q)
      = Cert.Dense.headAt (V c main_v41) (V c main_v1) (V c main_v42) (V c main_v43) (V c main_v44) (V c main_arg11) (V c main_v45) ⟨((((cfg3.win 7).blk t).view.emb (ix2 p q)) 0).val, _⟩
  exact payload_eq_headAt _ _ _ _ _ _ _ _ _ _ _ _ _ _ _ p q
    (fun k => hidden_block_apply V c t p k _ hrow) (fun k => input_block_apply V c t p k _ hrow)
    (upper_weights_block V c t) (lower_weights_block V c t) (hidden_bias_block V c t) (column_block V c t) (output_bias_block V c t)

/-- An index of the score array is in point t's block iff each coordinate is in the block's range on its axis. -/
theorem mem_block (t : Fin cfg3.N) (i : S100000x1.Idx) :
    i ∈ ((cfg3.win 7).blk t).view.set ↔ ∀ a : Fin 2, win3_7.index t a * S2000x1.size a ≤ (i a).val ∧ (i a).val < win3_7.index t a * S2000x1.size a + S2000x1.size a := by
  show i ∈ ((View.whole main_v46).slice (win3_7.rect t)).set ↔ _
  rw [View.set_slice_whole, Rect.mem_set_unit]
  exact Iff.rfl

/-- Every edge's row is in some point's block: row r is in the block of point r / 2000. -/
theorem covered (i : S100000x1.Idx) :
    ∃ t : Fin cfg3.N, (cfg3.win 7).flush t = true ∧ i ∈ ((cfg3.win 7).blk t).view.set := by
  have hi0 : (i 0).val < 100000 := (i 0).isLt
  have hi1 : (i 1).val < 1 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, -, -, -, -, -, -, -, -, e0, e1⟩ := block_indices t
  refine ⟨t, flush3_7 t, ?_⟩
  rw [mem_block]
  intro a
  match a with
  | ⟨0, _⟩ => show win3_7.index t (0 : Fin 2) * 2000 ≤ (i 0).val ∧ (i 0).val < win3_7.index t (0 : Fin 2) * 2000 + 2000; rw [e0, ht]; omega
  | ⟨1, _⟩ => show win3_7.index t (1 : Fin 2) * 1 ≤ (i 1).val ∧ (i 1).val < win3_7.index t (1 : Fin 2) * 1 + 1; rw [e1]; omega

/-- After the region the score array holds the scoring head of every edge. -/
theorem head_array (c : Dev nD) :
    (dat3 (F := Ideal) V c).arrAt 7 cfg3.N
      = Cert.Dense.head (V c main_v41) (V c main_v1) (V c main_v42) (V c main_v43) (V c main_v44) (V c main_arg11) (V c main_v45) :=
  (dat3 (F := Ideal) V c).arrAt_eq_of_cover 7 (Cert.Dense.head (V c main_v41) (V c main_v1) (V c main_v42) (V c main_v43) (V c main_v44) (V c main_arg11) (V c main_v45))
    (fun t _ => flushed_eq V c t) covered

end Cert.KernelIdeal.Hand

end
-- ==== Proof.KernelStages.lean ====
/-
  The kernel program's arrays at every boundary of its run, as functions of the thirteen argument arrays.

  The run is nine stretches: host operations, then each of the four dense stages with host operations between them.
  No stretch writes an argument, so an argument read at any boundary is the argument as launched. The label column is
  the labels reshaped; the first dense stage leaves every edge's table row (`rows0`); each of the next two takes the
  triangle aggregate of the rows before it through an affine layer with the positive part (`round`), the bias
  reshaped to a one-row matrix; the last scores every edge from the final rows and the first rows, its first weight
  matrix given as the upper and lower 64 rows of the 128 × 128 argument; the result is that column reshaped to a
  vector: `score` of the arguments.
-/
import proofs.«407951_j11003706213177_2_alg».proof.Proof.Gen.KernelIdeal.Frame
import proofs.«407951_j11003706213177_2_alg».proof.Proof.Score
import proofs.«407951_j11003706213177_2_alg».proof.Proof.Layouts
import proofs.«407951_j11003706213177_2_alg».proof.Proof.Lookup
import proofs.«407951_j11003706213177_2_alg».proof.Proof.Layer1
import proofs.«407951_j11003706213177_2_alg».proof.Proof.Layer2
import proofs.«407951_j11003706213177_2_alg».proof.Proof.Head
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.Dense

variable (m : (ℓ : Loc nD τ sig) → Buf (Elt Ideal) ℓ) (ρ : Dev nD → PrngReg)

/-- None of the operations of a stretch writes the buffer: each writes one buffer, another one. -/
macro "no_write" : tactic => `(tactic| (
  refine List.forall_iff_forall_mem.mp ?_
  simp only [hostOps0, hostOps1, hostOps2, hostOps3, hostOps4, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## A buffer nothing has written yet holds what it held at launch

One lemma per boundary, each from the one before: a stretch of host operations keeps a buffer none of them writes, a
dense stage keeps a buffer that is none of its arrays. -/

section Kept
variable (c : Dev nD) (b : Ref sig .tc)

theorem kept1 (h0 : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h0

theorem kept2 (h0 : ∀ op ∈ (hostOps0 : List (HloOp τ sig (Elt Ideal))), Proc.devRef .tc b ∉ op.writes)
    (r0 : ∀ w, Pipeline.arrRef spec0 w ≠ b) : W2 m ρ c (Proc.devRef .tc b) = m ((c : Thread nD τ).loc b) :=
  (W2_of_ne m ρ c b r0).trans (kept1 m ρ c b h0)

theorem kept3 (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes) :
    W3 m ρ c (Proc.devRef .tc b) = m ((c : Thread nD τ).loc b) :=
  (StableHlo.after_of_forall_not_mem _ _ h1).trans (kept2 m ρ c b h0 r0)

theorem kept4 (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b) : W4 m ρ c (Proc.devRef .tc b) = m ((c : Thread nD τ).loc b) :=
  (W4_of_ne m ρ c b r1).trans (kept3 m ρ c b h0 r0 h1)

theorem kept5 (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes) :
    W5 m ρ c (Proc.devRef .tc b) = m ((c : Thread nD τ).loc b) :=
  (StableHlo.after_of_forall_not_mem _ _ h2).trans (kept4 m ρ c b h0 r0 h1 r1)

theorem kept6 (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b) : W6 m ρ c (Proc.devRef .tc b) = m ((c : Thread nD τ).loc b) :=
  (W6_of_ne m ρ c b r2).trans (kept5 m ρ c b h0 r0 h1 r1 h2)

theorem kept7 (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b)
    (h3 : ∀ op ∈ (hostOps3 : List (HloOp τ sig (Elt Ideal))), Proc.devRef .tc b ∉ op.writes) :
    W7 m ρ c (Proc.devRef .tc b) = m ((c : Thread nD τ).loc b) :=
  (StableHlo.after_of_forall_not_mem _ _ h3).trans (kept6 m ρ c b h0 r0 h1 r1 h2 r2)

end Kept

/-! ## Before and after the first dense stage -/

theorem labels1 (c : Dev nD) : V1 m ρ c main_v0 = colOf (m ((c : Thread nD τ).loc main_arg0)) := by
  show StableHlo.after hostOps0 (W0 m ρ c) (Proc.devRef .tc main_v0) = _
  after_results
  exact shapeCast_colOf _ _

/-- After the first dense stage the rows are every edge's table row. -/
theorem rows2 (c : Dev nD) :
    W2 m ρ c (Proc.devRef .tc main_v1)
      = rows0 (m ((c : Thread nD τ).loc main_arg0)) (m ((c : Thread nD τ).loc main_arg4)) := by
  refine (W2_arr m ρ c 2).trans ?_
  rw [lookup_array (V1 m ρ) c, labels1]
  show lookup _ (W1 m ρ c (Proc.devRef .tc main_arg4)) = _
  rw [kept1 m ρ c main_arg4 (by no_write)]
  rfl

/-! ## The first round -/

set_option maxHeartbeats 8000000 in
/-- Before the second dense stage its input is the triangle aggregate of the first rows. -/
theorem agg3 (c : Dev nD) :
    W3 m ρ c (Proc.devRef .tc main_v19)
      = tri (rows0 (m ((c : Thread nD τ).loc main_arg0)) (m ((c : Thread nD τ).loc main_arg4)))
          (m ((c : Thread nD τ).loc main_arg1)) (m ((c : Thread nD τ).loc main_arg2)) (m ((c : Thread nD τ).loc main_arg3)) := by
  show StableHlo.after hostOps1 (W2 m ρ c) (Proc.devRef .tc main_v19) = _
  after_results_simp
  rw [rows2, kept2 m ρ c main_arg1 (by no_write) (by decide), kept2 m ρ c main_arg2 (by no_write) (by decide),
    kept2 m ρ c main_arg3 (by no_write) (by decide)]
  rfl

set_option maxHeartbeats 8000000 in
theorem bias3 (c : Dev nD) : W3 m ρ c (Proc.devRef .tc main_v20) = rowOf (m ((c : Thread nD τ).loc main_arg6)) := by
  show StableHlo.after hostOps1 (W2 m ρ c) (Proc.devRef .tc main_v20) = _
  after_results_simp
  rw [kept2 m ρ c main_arg6 (by no_write) (by decide)]
  exact shapeCast_rowOf _ _

/-- After the second dense stage the rows are the first round's. -/
theorem rows4 (c : Dev nD) :
    W4 m ρ c (Proc.devRef .tc main_v21)
      = round (rows0 (m ((c : Thread nD τ).loc main_arg0)) (m ((c : Thread nD τ).loc main_arg4)))
          (m ((c : Thread nD τ).loc main_arg1)) (m ((c : Thread nD τ).loc main_arg2)) (m ((c : Thread nD τ).loc main_arg3))
          (m ((c : Thread nD τ).loc main_arg5)) (m ((c : Thread nD τ).loc main_arg6)) := by
  refine (W4_arr m ρ c 3).trans ?_
  rw [layer1_array (V3 m ρ) c]
  show layer (W3 m ρ c (Proc.devRef .tc main_v19)) (W3 m ρ c (Proc.devRef .tc main_arg5)) (W3 m ρ c (Proc.devRef .tc main_v20)) = _
  rw [agg3, bias3, kept3 m ρ c main_arg5 (by no_write) (by decide) (by no_write)]
  rfl

/-! ## The second round -/

set_option maxHeartbeats 8000000 in
theorem agg5 (c : Dev nD) :
    W5 m ρ c (Proc.devRef .tc main_v39)
      = tri (F := Ideal) (W4 m ρ c (Proc.devRef .tc main_v21))
          (m ((c : Thread nD τ).loc main_arg1)) (m ((c : Thread nD τ).loc main_arg2)) (m ((c : Thread nD τ).loc main_arg3)) := by
  show StableHlo.after hostOps2 (W4 m ρ c) (Proc.devRef .tc main_v39) = _
  after_results_simp
  rw [kept4 m ρ c main_arg1 (by no_write) (by decide) (by no_write) (by decide),
    kept4 m ρ c main_arg2 (by no_write) (by decide) (by no_write) (by decide),
    kept4 m ρ c main_arg3 (by no_write) (by decide) (by no_write) (by decide)]
  rfl

set_option maxHeartbeats 8000000 in
theorem bias5 (c : Dev nD) : W5 m ρ c (Proc.devRef .tc main_v40) = rowOf (m ((c : Thread nD τ).loc main_arg8)) := by
  show StableHlo.after hostOps2 (W4 m ρ c) (Proc.devRef .tc main_v40) = _
  after_results_simp
  rw [kept4 m ρ c main_arg8 (by no_write) (by decide) (by no_write) (by decide)]
  exact shapeCast_rowOf _ _

/-- After the third dense stage the rows are the second round's, of the second dense stage's rows. -/
theorem rows6 (c : Dev nD) :
    W6 m ρ c (Proc.devRef .tc main_v41)
      = round (W4 m ρ c (Proc.devRef .tc main_v21))
          (m ((c : Thread nD τ).loc main_arg1)) (m ((c : Thread nD τ).loc main_arg2)) (m ((c : Thread nD τ).loc main_arg3))
          (m ((c : Thread nD τ).loc main_arg7)) (m ((c : Thread nD τ).loc main_arg8)) := by
  refine (W6_arr m ρ c 3).trans ?_
  rw [layer2_array (V5 m ρ) c]
  show layer (W5 m ρ c (Proc.devRef .tc main_v39)) (W5 m ρ c (Proc.devRef .tc main_arg7)) (W5 m ρ c (Proc.devRef .tc main_v40)) = _
  rw [agg5, bias5, kept5 m ρ c main_arg7 (by no_write) (by decide) (by no_write) (by decide) (by no_write)]
  rfl

/-! ## The scoring head -/

/-- The first rows are still in their buffer when the head reads them: nothing after the first dense stage writes it. -/
theorem rows0_at7 (c : Dev nD) : W7 m ρ c (Proc.devRef .tc main_v1) = W2 m ρ c (Proc.devRef .tc main_v1) :=
  (StableHlo.after_of_forall_not_mem (b := Proc.devRef .tc main_v1) hostOps3 (W6 m ρ c) (by no_write)).trans <|
  (W6_of_ne m ρ c main_v1 (by decide)).trans <|
  (StableHlo.after_of_forall_not_mem (b := Proc.devRef .tc main_v1) hostOps2 (W4 m ρ c) (by no_write)).trans <|
  (W4_of_ne m ρ c main_v1 (by decide)).trans <|
  StableHlo.after_of_forall_not_mem (b := Proc.devRef .tc main_v1) hostOps1 (W2 m ρ c) (by no_write)

theorem rows2_at7 (c : Dev nD) : W7 m ρ c (Proc.devRef .tc main_v41) = W6 m ρ c (Proc.devRef .tc main_v41) :=
  StableHlo.after_of_forall_not_mem (b := Proc.devRef .tc main_v41) hostOps3 (W6 m ρ c) (by no_write)

theorem upper7 (c : Dev nD) : W7 m ρ c (Proc.devRef .tc main_v42) = upperRows (m ((c : Thread nD τ).loc main_arg9)) := by
  show StableHlo.after hostOps3 (W6 m ρ c) (Proc.devRef .tc main_v42) = _
  after_results
  rw [kept6 m ρ c main_arg9 (by no_write) (by decide) (by no_write) (by decide) (by no_write) (by decide)]
  exact slice_upperRows _ _

theorem lower7 (c : Dev nD) : W7 m ρ c (Proc.devRef .tc main_v43) = lowerRows (m ((c : Thread nD τ).loc main_arg9)) := by
  show StableHlo.after hostOps3 (W6 m ρ c) (Proc.devRef .tc main_v43) = _
  after_results
  rw [kept6 m ρ c main_arg9 (by no_write) (by decide) (by no_write) (by decide) (by no_write) (by decide)]
  exact slice_lowerRows _ _

theorem hbias7 (c : Dev nD) : W7 m ρ c (Proc.devRef .tc main_v44) = rowOf (m ((c : Thread nD τ).loc main_arg10)) := by
  show StableHlo.after hostOps3 (W6 m ρ c) (Proc.devRef .tc main_v44) = _
  after_results
  rw [kept6 m ρ c main_arg10 (by no_write) (by decide) (by no_write) (by decide) (by no_write) (by decide)]
  exact shapeCast_rowOf _ _

theorem obias7 (c : Dev nD) : W7 m ρ c (Proc.devRef .tc main_v45) = rowOf (m ((c : Thread nD τ).loc main_arg12)) := by
  show StableHlo.after hostOps3 (W6 m ρ c) (Proc.devRef .tc main_v45) = _
  after_results
  rw [kept6 m ρ c main_arg12 (by no_write) (by decide) (by no_write) (by decide) (by no_write) (by decide)]
  exact shapeCast_rowOf _ _

/-- THE RESULT: the result array ends at the score of the arguments. -/
theorem result9 (c : Dev nD) :
    W9 m ρ c (Proc.devRef .tc main_v47)
      = score (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  have h8 : W8 m ρ c (Proc.devRef .tc main_v46)
      = head (W7 m ρ c (Proc.devRef .tc main_v41)) (W7 m ρ c (Proc.devRef .tc main_v1)) (W7 m ρ c (Proc.devRef .tc main_v42))
          (W7 m ρ c (Proc.devRef .tc main_v43)) (W7 m ρ c (Proc.devRef .tc main_v44)) (W7 m ρ c (Proc.devRef .tc main_arg11))
          (W7 m ρ c (Proc.devRef .tc main_v45)) := by
    refine (W8_arr m ρ c 7).trans ?_
    rw [head_array (V7 m ρ) c]
  show StableHlo.after hostOps4 (W8 m ρ c) (Proc.devRef .tc main_v47) = _
  after_results
  rw [h8, rows2_at7, rows6, rows4, rows0_at7, rows2, upper7, lower7, hbias7, obias7,
    kept7 m ρ c main_arg11 (by no_write) (by decide) (by no_write) (by decide) (by no_write) (by decide) (by no_write)]
  exact shapeCast_vecOf _ _

end Cert.KernelIdeal.Hand

end
-- ==== Proof.LookupRow.lean ====
/-
  The one-hot product picks a row. The weight of table row k for a label w is one when w is the word of k and zero
  otherwise; so for a label that names a row of the table — read signed, at least 0 and below 102 — the sum over the
  102 rows has one term that is not zero, the row the label names: the looked-up entry (p, q) is the table's entry
  (label p, q). Only 0 · x = 0 and 1 · x = x are used, which hold for every extended real.
-/
import proofs.«407951_j11003706213177_2_alg».proof.Proof.Dense
import Idealize.ShloMosaic.Lib.Affine
import Idealize.ShloMosaic.Lib.StableHlo.Predicate

noncomputable section

namespace Cert.Dense

open Idealize.ShloMosaic Idealize.ShloMosaic.ValueIdx

/-- The one-hot weight is the indicator of "the label is row k". -/
theorem hot_eq (w : BitVec 32) (k : Nat) : hot w k = if w = BitVec.ofNat 32 k then 1 else 0 := by
  unfold hot
  by_cases h : w = BitVec.ofNat 32 k
  · rw [if_pos h, IntOp.cmpi_eq.2 h, show ((1#1 : BitVec 1).setWidth 32).toInt = 1 from by decide]
    simp
  · rw [if_neg h, eq_zero_of_ne_one (fun e => h (IntOp.cmpi_eq.1 e)),
      show ((0#1 : BitVec 1).setWidth 32).toInt = 0 from by decide]
    simp

/-- The one-hot row of a label w that names a table row, against column q of the table, is the table's entry (w, q). -/
theorem hot_sum (w : BitVec 32) (tab : Mat 102 64) (q : Fin 64) (h0 : 0 ≤ w.toInt) (h1 : w.toInt < 102) :
    ∑ k : Fin 102, hot w k.val * tab (ix2 k q) = tab (ix2 (⟨w.toInt.toNat, by omega⟩ : Fin 102) q) := by
  have hw : w = BitVec.ofNat 32 w.toInt.toNat :=
    BitVec.eq_of_toInt_eq (by rw [StableHlo.Predicate.toInt_ofNat_small _ (by omega)]; omega)
  rw [Finset.sum_eq_single (⟨w.toInt.toNat, by omega⟩ : Fin 102)]
  · rw [hot_eq, if_pos hw, one_mul]
  · intro k _ hk
    rw [hot_eq, if_neg, zero_mul]
    intro e
    apply hk
    apply Fin.ext
    have h2 := congrArg BitVec.toInt e
    rw [StableHlo.Predicate.toInt_ofNat_small k.val (by have := k.isLt; omega)] at h2
    show k.val = w.toInt.toNat
    omega
  · intro h
    exact absurd (Finset.mem_univ _) h

/-- For a label that names a table row, the looked-up entry is that row's entry. -/
theorem lookupAt_row (lab : (⟨2, ![100000, 1]⟩ : Shape).Idx → BitVec 32) (tab : Mat 102 64) (p : Fin 100000) (q : Fin 64)
    (h0 : 0 ≤ (lab (ix2 p (0 : Fin 1))).toInt) (h1 : (lab (ix2 p (0 : Fin 1))).toInt < 102) :
    lookupAt lab tab p q = tab (ix2 (⟨(lab (ix2 p (0 : Fin 1))).toInt.toNat, by omega⟩ : Fin 102) q) :=
  hot_sum (lab (ix2 p (0 : Fin 1))) tab q h0 h1

end Cert.Dense

end
-- ==== Proof.LibRowGather.lean ====
/-
  GENERAL LEMMA (no program imported): jnp's `table[idx]` on a matrix, read at an element.

  For a table [N, D] and a column of n indices, `table[idx]` prints as a `stablehlo.gather` with start indices [n, 1]
  (the index vector on axis 1), the table's row axis collapsed and start-indexed, its column axis the result's offset axis,
  slices of one whole row.  `gather_rows_apply`: the result at (p, q) is the table at (row, q), the row being index p's
  word read signed and clamped into [0, N − 1], as StableHLO's gather clamps every start index.
-/
import Idealize.ShloMosaic.PureOps.ShapeOps
import Idealize.ShloMosaic.Lib.ValueIdx

noncomputable section

namespace Cert.LibRowGather

open Idealize.ShloMosaic Idealize.ShloMosaic.ValueIdx

/-- The dimension numbers of `table[idx]` for a table [N, D], start indices [n, 1] and a result [n, D]. Their conditions
    are decided on a program's literal shapes; a printed record with these fields is this one. -/
abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE GATHER READ AT (p, q): the table's entry q of the row that index p names, clamped into the table. -/
theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.RefStages.lean ====
/-
  The reference program's stages, read as the same functions the kernel program's dense stages compute.

  The reference gathers each edge's table row by its label (a negative label wrapped, the row number clamped into the
  table): for a label that names a row this is that row, which is also what the one-hot product gives (`rows_ref`). Its
  two rounds apply the same triangle aggregation and then a matrix product, a bias broadcast over the edges and the
  positive part — `Dense.layer` entry by entry (`round1_ref`, `round2_ref`). Its head joins the final rows and the first
  rows side by side and multiplies by the whole 128 × 128 matrix: the sum over the 128 joined columns splits into the
  sum over the first 64, against the matrix's upper rows, plus the sum over the last 64, against its lower rows — an
  identity of finite sums in a commutative monoid, so it holds for all extended reals (`head_ref`).
-/
import proofs.«407951_j11003706213177_2_alg».proof.Proof.Gen.ReferenceIdeal.Read
import proofs.«407951_j11003706213177_2_alg».proof.Proof.Score
import proofs.«407951_j11003706213177_2_alg».proof.Proof.Layouts
import proofs.«407951_j11003706213177_2_alg».proof.Proof.LookupRow
import proofs.«407951_j11003706213177_2_alg».proof.Proof.LibRowGather
import Idealize.ShloMosaic.Lib.Pipeline.Value
import Idealize.ShloMosaic.Lib.ValueIdx
import Idealize.ShloMosaic.Lib.Affine
import Idealize.ShloMosaic.PureOps.Ideal.Laws

noncomputable section

namespace Cert.ReferenceIdeal.Hand

open Idealize.ShloMosaic Idealize.ShloMosaic.ValueIdx Cert.ReferenceIdeal Cert.ReferenceIdeal.Read Cert.Dense
open Cert.ReferenceIdeal.Facts₀ Cert.ReferenceIdeal.Facts

variable (x0 : IVec S100000 32) (x1 x2 x3 : IVec S500000 32) (x4 : FVec Ideal S102x64 .f32) (x5 : FVec Ideal S64x64 .f32)
  (x6 : FVec Ideal S64 .f32) (x7 : FVec Ideal S64x64 .f32) (x8 : FVec Ideal S64 .f32) (x9 : FVec Ideal S128x128 .f32)
  (x10 : FVec Ideal S128 .f32) (x11 : FVec Ideal S128x1 .f32) (x12 : FVec Ideal S1 .f32)

/-! ## The first rows -/

/-- For labels that name table rows the gathered rows are the one-hot product's. -/
theorem rows_ref (hlab : ∀ e : S100000.Idx, 0 ≤ (x0 e).toInt ∧ (x0 e).toInt < 102) :
    val_main_v6 (F := Ideal) x0 x4 = Cert.KernelIdeal.Hand.rows0 x0 x4 := by
  funext i
  obtain ⟨p, q, rfl⟩ : ∃ (p : Fin 100000) (q : Fin 64), i = ix2 p q := ⟨i 0, i 1, eq_ix2 i⟩
  obtain ⟨h0, h1⟩ := hlab (ix1 p)
  have hsel : val_main_v5 (F := Ideal) x0 (ix2 p (0 : Fin 1)) = x0 (ix1 p) := by
    rw [val_main_v5_apply, val_main_v4_apply, val_main_v1_apply, val_main_v0_apply, val_main_c_apply]
    have hi : idx_main_v5 (ix2 p (0 : Fin 1)) = ix1 p := funext fun a => match a with | ⟨0, _⟩ => rfl
    rw [hi]
    have hc : IntOp.cmpi .slt (x0 (ix1 p)) 0#32 = 0#1 := eq_zero_of_ne_one (fun e => by
      have h2 := IntOp.cmpi_slt.1 e
      rw [show (0#32 : BitVec 32).toInt = 0 from rfl] at h2
      omega)
    rw [hc, select_zero]
  have hg : gather_S102x64_S100000x1_S100000x64_1_0_n_n_0_1_164
      = Cert.LibRowGather.rowGatherDims 102 64 100000 gather_S102x64_S100000x1_S100000x64_1_0_n_n_0_1_164_wf := rfl
  unfold val_main_v6
  rw [hg, Cert.LibRowGather.gather_rows_apply (by decide) _ x4 _ p q]
  show _ = lookupAt (colOf x0) x4 p q
  rw [lookupAt_row (colOf x0) x4 p q h0 h1]
  refine congrArg x4 (funext fun a => Fin.ext ?_)
  match a with
  | ⟨0, _⟩ =>
    show min (val_main_v5 (F := Ideal) x0 (ix2 p (0 : Fin 1))).toInt.toNat (102 - 1) = (x0 (ix1 p)).toInt.toNat
    rw [hsel]; omega
  | ⟨1, _⟩ => rfl

/-! ## The two rounds -/

/-- The reference's aggregation of the first rows is the shared triangle aggregation of them. -/
theorem agg1_ref : val_main_v24 (F := Ideal) x0 x1 x2 x3 x4 = Cert.KernelIdeal.Hand.tri (F := Ideal) (val_main_v6 (F := Ideal) x0 x4) x1 x2 x3 := rfl

/-- The first round, entry by entry. -/
theorem round1_ref :
    val_main_v29 (F := Ideal) x0 x1 x2 x3 x4 x5 x6 = Cert.KernelIdeal.Hand.round (val_main_v6 (F := Ideal) x0 x4) x1 x2 x3 x5 x6 := by
  funext i
  obtain ⟨p, q, rfl⟩ : ∃ (p : Fin 100000) (q : Fin 64), i = ix2 p q := ⟨i 0, i 1, eq_ix2 i⟩
  rw [val_main_v29_apply, val_main_v28_apply, val_main_v25_apply, val_main_v27_apply, val_main_v26_apply,
    val_main_call0_v0_apply, val_main_call0_cst_apply, agg1_ref]
  have hl : ∀ k : Fin 64, lidx_main_v25 (ix2 p q) k = ix2 p k := fun k => funext fun a => match a with
    | ⟨0, _⟩ => rfl
    | ⟨1, _⟩ => rfl
  have hr : ∀ k : Fin 64, ridx_main_v25 (ix2 p q) k = ix2 k q := fun k => funext fun a => match a with
    | ⟨0, _⟩ => rfl
    | ⟨1, _⟩ => rfl
  have hb : idx_main_v26 (idx_main_v27 (ix2 p q)) = ix1 q := funext fun a => match a with | ⟨0, _⟩ => rfl
  simp only [hl, hr, hb]
  rfl

/-- The reference's aggregation of the first round's rows is the shared triangle aggregation of them. -/
theorem agg2_ref : val_main_v47 (F := Ideal) x0 x1 x2 x3 x4 x5 x6
    = Cert.KernelIdeal.Hand.tri (F := Ideal) (val_main_v29 (F := Ideal) x0 x1 x2 x3 x4 x5 x6) x1 x2 x3 := rfl

/-- The second round, entry by entry. -/
theorem round2_ref :
    val_main_v52 (F := Ideal) x0 x1 x2 x3 x4 x5 x6 x7 x8
      = Cert.KernelIdeal.Hand.round (val_main_v29 (F := Ideal) x0 x1 x2 x3 x4 x5 x6) x1 x2 x3 x7 x8 := by
  funext i
  obtain ⟨p, q, rfl⟩ : ∃ (p : Fin 100000) (q : Fin 64), i = ix2 p q := ⟨i 0, i 1, eq_ix2 i⟩
  rw [val_main_v52_apply, val_main_v51_apply, val_main_v48_apply, val_main_v50_apply, val_main_v49_apply,
    val_main_call1_v0_apply, val_main_call1_cst_apply, agg2_ref]
  have hl : ∀ k : Fin 64, lidx_main_v48 (ix2 p q) k = ix2 p k := fun k => funext fun a => match a with
    | ⟨0, _⟩ => rfl
    | ⟨1, _⟩ => rfl
  have hr : ∀ k : Fin 64, ridx_main_v48 (ix2 p q) k = ix2 k q := fun k => funext fun a => match a with
    | ⟨0, _⟩ => rfl
    | ⟨1, _⟩ => rfl
  have hb : idx_main_v49 (idx_main_v50 (ix2 p q)) = ix1 q := funext fun a => match a with | ⟨0, _⟩ => rfl
  simp only [hl, hr, hb]
  rfl

/-! ## The scoring head -/

/-- A sum over 128 indices is the sum over the first 64 plus the sum over the last 64. -/
theorem sum_halves (f : Fin 128 → EReal) :
    ∑ k : Fin 128, f k = (∑ k : Fin 64, f ⟨k.val, by omega⟩) + ∑ k : Fin 64, f ⟨64 + k.val, by omega⟩ :=
  Fin.sum_univ_add (a := 64) (b := 64) f

/-- Column k < 64 of the joined rows is column k of the final rows. -/
theorem joined_left (p : Fin 100000) (k : Fin 64) :
    val_main_v53 (F := Ideal) x0 x1 x2 x3 x4 x5 x6 x7 x8 (ix2 p (⟨k.val, by omega⟩ : Fin 128))
      = val_main_v52 (F := Ideal) x0 x1 x2 x3 x4 x5 x6 x7 x8 (ix2 p k) := by
  unfold val_main_v53
  generalize val_main_v52 (F := Ideal) x0 x1 x2 x3 x4 x5 x6 x7 x8 = y
  generalize val_main_v6 (F := Ideal) x0 x4 = z
  exact concatenate_pair_apply_left (1 : Fin 2) y z concatenates_S100000x64_S100000x64_S100000x128_d1
    (ix2 p (⟨k.val, by omega⟩ : Fin 128)) rfl (ix2 p k) (fun b => match b with
      | ⟨0, _⟩ => rfl
      | ⟨1, _⟩ => rfl)

/-- Column 64 + k of the joined rows is column k of the first rows. -/
theorem joined_right (p : Fin 100000) (k : Fin 64) :
    val_main_v53 (F := Ideal) x0 x1 x2 x3 x4 x5 x6 x7 x8 (ix2 p (⟨64 + k.val, by omega⟩ : Fin 128))
      = val_main_v6 (F := Ideal) x0 x4 (ix2 p k) := by
  unfold val_main_v53
  generalize val_main_v52 (F := Ideal) x0 x1 x2 x3 x4 x5 x6 x7 x8 = y
  generalize val_main_v6 (F := Ideal) x0 x4 = z
  exact concatenate_pair_apply_right (1 : Fin 2) y z concatenates_S100000x64_S100000x64_S100000x128_d1
    (ix2 p (⟨64 + k.val, by omega⟩ : Fin 128)) rfl rfl (ix2 p k) (fun b hb => match b with
      | ⟨0, _⟩ => rfl
      | ⟨1, _⟩ => absurd rfl hb)
    (by show k.val + 64 = 64 + k.val; omega)

/-- Hidden unit j of the reference's head on edge p is `hiddenAt`: the product with the whole matrix splits by halves. -/
theorem hidden_ref (p : Fin 100000) (j : Fin 128) :
    val_main_v58 (F := Ideal) x0 x1 x2 x3 x4 x5 x6 x7 x8 x9 x10 (ix2 p j)
      = hiddenAt (val_main_v52 (F := Ideal) x0 x1 x2 x3 x4 x5 x6 x7 x8) (val_main_v6 (F := Ideal) x0 x4)
          (upperRows x9) (lowerRows x9) (rowOf x10) p j := by
  rw [val_main_v58_apply, val_main_v57_apply, val_main_v54_apply, val_main_v56_apply, val_main_v55_apply,
    val_main_call2_v0_apply, val_main_call2_cst_apply]
  have hl : ∀ k : Fin 128, lidx_main_v54 (ix2 p j) k = ix2 p k := fun k => funext fun a => match a with
    | ⟨0, _⟩ => rfl
    | ⟨1, _⟩ => rfl
  have hr : ∀ k : Fin 128, ridx_main_v54 (ix2 p j) k = ix2 k j := fun k => funext fun a => match a with
    | ⟨0, _⟩ => rfl
    | ⟨1, _⟩ => rfl
  have hb : idx_main_v55 (idx_main_v56 (ix2 p j)) = ix1 j := funext fun a => match a with | ⟨0, _⟩ => rfl
  simp only [hl, hr, hb]
  rw [sum_halves]
  simp only [joined_left, joined_right]
  rfl

/-- The reference's score column is `Dense.head` of its final rows and its first rows. -/
theorem head_ref :
    val_main_v62 (F := Ideal) x0 x1 x2 x3 x4 x5 x6 x7 x8 x9 x10 x11 x12
      = head (val_main_v52 (F := Ideal) x0 x1 x2 x3 x4 x5 x6 x7 x8) (val_main_v6 (F := Ideal) x0 x4)
          (upperRows x9) (lowerRows x9) (rowOf x10) x11 (rowOf x12) := by
  funext i
  obtain ⟨p, z, rfl⟩ : ∃ (p : Fin 100000) (z : Fin 1), i = ix2 p z := ⟨i 0, i 1, eq_ix2 i⟩
  obtain rfl : z = 0 := Subsingleton.elim _ _
  rw [val_main_v62_apply, val_main_v59_apply, val_main_v61_apply, val_main_v60_apply]
  have hl : ∀ j : Fin 128, lidx_main_v59 (ix2 p (0 : Fin 1)) j = ix2 p j := fun j => funext fun a => match a with
    | ⟨0, _⟩ => rfl
    | ⟨1, _⟩ => rfl
  have hr : ∀ j : Fin 128, ridx_main_v59 (ix2 p (0 : Fin 1)) j = ix2 j (0 : Fin 1) := fun j => funext fun a => match a with
    | ⟨0, _⟩ => rfl
    | ⟨1, _⟩ => rfl
  have hb : idx_main_v60 (idx_main_v61 (ix2 p (0 : Fin 1))) = ix1 (0 : Fin 1) := funext fun a => match a with | ⟨0, _⟩ => rfl
  simp only [hl, hr, hb, hidden_ref]
  rfl

/-! ## The result -/

/-- THE REFERENCE'S RESULT: for labels that name table rows it is the score of the arguments. -/
theorem result_ref (hlab : ∀ e : S100000.Idx, 0 ≤ (x0 e).toInt ∧ (x0 e).toInt < 102) :
    val_main_v63 (F := Ideal) x0 x1 x2 x3 x4 x5 x6 x7 x8 x9 x10 x11 x12
      = Cert.KernelIdeal.Hand.score x0 x1 x2 x3 x4 x5 x6 x7 x8 x9 x10 x11 x12 := by
  unfold val_main_v63
  rw [shapeCast_vecOf, head_ref, round2_ref, round1_ref, rows_ref x0 x4 hlab]
  rfl

end Cert.ReferenceIdeal.Hand

end
-- ==== Proof.Domain.lean ====
/-
  What the precondition says of the labels. The printed precondition is a conjunction of nine finiteness tests and one
  range test, each a reduction by "and" of an array of one-bit comparisons; when the whole conjunction is one, the last
  conjunct is one, so every entry of its array is one: for every edge e the label's word, read signed, is at least 0
  and below 102 — a row of the 102-row table.
-/
import proofs.«407951_j11003706213177_2_alg».proof.Pre_finite_inputs
import Idealize.ShloMosaic.Lib.ReduceAll
import Idealize.ShloMosaic.Lib.Affine
import Idealize.ShloMosaic.Lib.StableHlo.Predicate
import Idealize.ShloMosaic.Lib.ValueIdx

noncomputable section

namespace Cert.Domain

open Idealize.ShloMosaic Idealize.ShloMosaic.ValueIdx Cert.Pre_finite_inputs

instance : Subsingleton S_.Idx := ⟨fun a b => funext fun d => d.elim0⟩

/-- Under the precondition every label names a table row: 0 ≤ label e < 102, the word read signed. -/
theorem label_range {F : FTy → Type} [FloatOps F] [Cert.Pre_finite_inputs.Facts]
    (a0 : IVec S100000 32) (a1 a2 a3 : IVec S500000 32) (a4 : FVec F S102x64 .f32) (a5 : FVec F S64x64 .f32)
    (a6 : FVec F S64 .f32) (a7 : FVec F S64x64 .f32) (a8 : FVec F S64 .f32) (a9 : FVec F S128x128 .f32)
    (a10 : FVec F S128 .f32) (a11 : FVec F S128x1 .f32) (a12 : FVec F S1 .f32)
    (h : Cert.Pre_finite_inputs.fn (F := F) a0 a1 a2 a3 a4 a5 a6 a7 a8 a9 a10 a11 a12 = fun _ => 1#1)
    (e : S100000.Idx) : 0 ≤ (a0 e).toInt ∧ (a0 e).toInt < 102 := by
  have h0 := congrFun h ix0
  dsimp only [Cert.Pre_finite_inputs.fn, Cert.Pre_finite_inputs.fn_part1, Cert.Pre_finite_inputs.fn_part2] at h0
  obtain ⟨-, hr⟩ := IntOp.andi_eq_one.1 h0
  have he := Host.reduce_andi_all _ _ _ _ _ hr e
  obtain ⟨hge, hlt⟩ := IntOp.andi_eq_one.1 he
  have h1 := IntOp.cmpi_sge.1 hge
  have h2 := IntOp.cmpi_slt.1 hlt
  rw [StableHlo.Predicate.bcast_scalar _ Facts.h_S_] at h1 h2
  exact ⟨h1, h2⟩

end Cert.Domain

end
-- ==== Proof.lean ====
/-
  The triangle-message network on 100000 edges, computed two ways, gives the same scores over the extended reals.

  Each edge first gets the row of a 102-row table that its label names. One program reads the row with a gather; the
  other multiplies a one-hot row by the table. They agree exactly when the label names a row of the table, 0 ≤ label < 102,
  which the precondition states for every edge (the array the labels index has 102 rows); it is the only place the
  precondition is used, and no finiteness of the float arguments is needed: the sums involved are re-bracketed, never
  distributed or cancelled. Then come two rounds of "aggregate the triangle messages of the current rows, apply an
  affine layer, take the positive part": the aggregation is the same operations in both programs and is carried as
  one function of the rows; the layer is a matrix product in blocks of 2000 edges in one program and over all edges in
  the other, the same sum over 64 terms entry by entry. The scoring head multiplies the final rows and the first rows,
  joined side by side, by a 128 × 128 matrix in one program, and multiplies the two by the matrix's upper and lower
  halves and adds in the other: a sum over 128 terms split into its two halves. Both results are `score` of the
  arguments (Proof/Score.lean): the kernel program's by following its run boundary by boundary (Proof/KernelStages.lean
  over the four dense stages' arrays, Proof/Lookup.lean, Layer1.lean, Layer2.lean, Head.lean), the reference's by reading
  its stages entry by entry (Proof/RefStages.lean). The three programs run to the end with their arguments unchanged
  by the generated frames and the reference's generated run; the idealized kernel is the kernel's own text, so there
  is nothing to preserve.
-/
import proofs.«407951_j11003706213177_2_alg».proof.Defs
import proofs.«407951_j11003706213177_2_alg».proof.Proof.Gen.Kernel
import proofs.«407951_j11003706213177_2_alg».proof.Proof.Gen.Kernel.Frame
import proofs.«407951_j11003706213177_2_alg».proof.Proof.Gen.KernelIdeal
import proofs.«407951_j11003706213177_2_alg».proof.Proof.Gen.KernelIdeal.Frame
import proofs.«407951_j11003706213177_2_alg».proof.Proof.Gen.ReferenceIdeal
import proofs.«407951_j11003706213177_2_alg».proof.Proof.Gen.ReferenceIdeal.Run
import proofs.«407951_j11003706213177_2_alg».proof.Proof.Gen.ReferenceIdeal.Read
import proofs.«407951_j11003706213177_2_alg».proof.Proof.Gen.Pre_finite_inputs
import proofs.«407951_j11003706213177_2_alg».proof.Proof.Named
import proofs.«407951_j11003706213177_2_alg».proof.Proof.KernelStages
import proofs.«407951_j11003706213177_2_alg».proof.Proof.RefStages
import proofs.«407951_j11003706213177_2_alg».proof.Proof.Domain
import Idealize.ShloMosaic.Adequacy
import Idealize.ShloMosaic.Init

noncomputable section

namespace Cert.Proof

open Idealize.ShloMosaic Idealize.SL.Sem

/-- The kernel program runs to the end, nothing faulting, its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the arguments, with every label naming a table row, both programs end with the
    score of the arguments in their result arrays. -/
theorem algebraic : Cert.algebraic_KernelIdeal_ReferenceIdeal := by
  intro m ρ m' ρ' hpre hagree
  refine ⟨fun c => Cert.KernelIdeal.Hand.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.result9 m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v63_eq, e0, e1, e2, e3, e4, e5, e6, e7, e8, e9, e10, e11, e12]
    exact Cert.ReferenceIdeal.Hand.result_ref _ _ _ _ _ _ _ _ _ _ _ _ _
      (fun e => Cert.Domain.label_range _ _ _ _ _ _ _ _ _ _ _ _ _ (hpre c) e)

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
